-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x200 : Shape := ⟨2, ![2048, 200]⟩
abbrev S9x32000 : Shape := ⟨2, ![9, 32000]⟩
abbrev S9 : Shape := ⟨1, ![9]⟩
abbrev S_ : Shape := ⟨0, ![]⟩

class Facts : Prop where
  bcast_S_S9x32000 : S_.BroadcastsInDim S9x32000 (![] : Fin 0 → Fin S9x32000.rank)
  reducesTo_S9x32000_S_d0_1 : S9x32000.ReducesTo [0, 1] S_
  h_S_ : 0 < S_.numel
  bcast_S_S9 : S_.BroadcastsInDim S9 (![] : Fin 0 → Fin S9.rank)
  reducesTo_S9_S_d0 : S9.ReducesTo [0] S_
  bcast_S_S2048x200 : S_.BroadcastsInDim S2048x200 (![] : Fin 0 → Fin S2048x200.rank)
  reducesTo_S2048x200_S_d0_1 : S2048x200.ReducesTo [0, 1] S_

variable [Facts]

def fn {F : FTy → Type} [FloatOps F] (main_arg0 : IVec S2048x200 32) (main_arg1 : FVec F S9x32000 .f32) (main_arg2 : FVec F S9 .f32) : IVec S_ 1 :=
  let main_v0 : FVec F S9x32000 .f32 := Host.absf main_arg1
  let main_cst : FVec F S_ .f32 := constant S_ .f32 0x7F800000#32
  let main_v1 : FVec F S9x32000 .f32 := broadcastInDim S9x32000 ![] bcast_S_S9x32000 main_cst
  let main_v2 : IVec S9x32000 1 := cmpf .olt main_v0 main_v1
  let main_c : IVec S_ 1 := constantI S_ 1 1#1
  let main_v3 : IVec S_ 1 := (fun x v => Host.reduce IntOp.andi x v reducesTo_S9x32000_S_d0_1 h_S_) main_v2 main_c
  let main_v4 : FVec F S9 .f32 := Host.absf main_arg2
  let main_cst_0 : FVec F S_ .f32 := constant S_ .f32 0x7F800000#32
  let main_v5 : FVec F S9 .f32 := broadcastInDim S9 ![] bcast_S_S9 main_cst_0
  let main_v6 : IVec S9 1 := cmpf .olt main_v4 main_v5
  let main_c_1 : IVec S_ 1 := constantI S_ 1 1#1
  let main_v7 : IVec S_ 1 := (fun x v => Host.reduce IntOp.andi x v reducesTo_S9_S_d0 h_S_) main_v6 main_c_1
  let main_v8 : IVec S_ 1 := andi main_v3 main_v7
  let main_c_2 : IVec S_ 32 := constantI S_ 32 0#32
  let main_v9 : IVec S2048x200 32 := broadcastInDim S2048x200 ![] bcast_S_S2048x200 main_c_2
  let main_v10 : IVec S2048x200 1 := cmpi .sge main_arg0 main_v9
  let main_c_3 : IVec S_ 1 := constantI S_ 1 1#1
  let main_v11 : IVec S_ 1 := (fun x v => Host.reduce IntOp.andi x v reducesTo_S2048x200_S_d0_1 h_S_) main_v10 main_c_3
  let main_v12 : IVec S_ 1 := andi main_v8 main_v11
  main_v12
-- ==== Kernel.lean ====
abbrev S2048x200 : Shape := ⟨2, ![2048, 200]⟩
abbrev S9x32000 : Shape := ⟨2, ![9, 32000]⟩
abbrev S9 : Shape := ⟨1, ![9]⟩
abbrev S1x9 : Shape := ⟨2, ![1, 9]⟩
abbrev S2048x9 : Shape := ⟨2, ![2048, 9]⟩
abbrev S256x200 : Shape := ⟨2, ![256, 200]⟩
abbrev S9x1280 : Shape := ⟨2, ![9, 1280]⟩
abbrev S256x9 : Shape := ⟨2, ![256, 9]⟩
abbrev S1x1280 : Shape := ⟨2, ![1, 1280]⟩
abbrev S256x1280 : Shape := ⟨2, ![256, 1280]⟩
abbrev S256x1 : Shape := ⟨2, ![256, 1]⟩
abbrev S1280x9 : Shape := ⟨2, ![1280, 9]⟩
abbrev S256 : Shape := ⟨1, ![256]⟩

abbrev nBuf : Space → Nat
  | .hbm => 5
  | .vmem => 8
  | .smem => 0
  | _ => 0

abbrev bufTy : (tb : Table) → Fin (tcTables nBuf tb) → BufTy
  | .hbm, ⟨0, _⟩ => ⟨S2048x200, .i32⟩
  | .hbm, ⟨1, _⟩ => ⟨S9x32000, .f32⟩
  | .hbm, ⟨2, _⟩ => ⟨S9, .f32⟩
  | .hbm, ⟨3, _⟩ => ⟨S1x9, .f32⟩
  | .hbm, ⟨4, _⟩ => ⟨S2048x9, .f32⟩
  | .local _ .vmem, ⟨0, _⟩ => ⟨S256x200, .i32⟩
  | .local _ .vmem, ⟨1, _⟩ => ⟨S256x200, .i32⟩
  | .local _ .vmem, ⟨2, _⟩ => ⟨S9x1280, .f32⟩
  | .local _ .vmem, ⟨3, _⟩ => ⟨S9x1280, .f32⟩
  | .local _ .vmem, ⟨4, _⟩ => ⟨S1x9, .f32⟩
  | .local _ .vmem, ⟨5, _⟩ => ⟨S256x9, .f32⟩
  | .local _ .vmem, ⟨6, _⟩ => ⟨S256x9, .f32⟩
  | .local _ .vmem, ⟨7, _⟩ => ⟨S256x9, .f32⟩
  | _, _ => ⟨S2048x200, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 25], ![false, false]⟩

def k0_cond2 (i : grid0.Coords) : BitVec 1 :=
  let arg1 : BitVec 32 := BitVec.ofNat 32 (i 1).val
  let c24_i32 : BitVec 32 := 24#32
  let v1417 : BitVec 1 := Scalar.cmpi .eq arg1 c24_i32
  let v1418 : BitVec 32 := Scalar.extui v1417
  let c0_i32_9 : BitVec 32 := 0#32
  let v1419 : BitVec 1 := Scalar.cmpi .ne v1418 c0_i32_9
  v1419

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x200 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S9x1280 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x9 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x9 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  shapeCasts_S9_S1x9 : S9.ShapeCasts S1x9
  inb_S256x9_S256x9_0_0 : ∀ a, (![0, 0] : Fin 2 → Nat) a + S256x9.size a ≤ S256x9.size a
  h_S256x9 : 0 < S256x9.numel
  shapeCasts_S256x9_S256x9 : S256x9.ShapeCasts S256x9
  iota_S1x1280_d1_w32 : S1x1280.Iotas .tc 32 [1]
  inb_S256x200_S256x200_0_0 : ∀ a, (![0, 0] : Fin 2 → Nat) a + S256x200.size a ≤ S256x200.size a
  h_S256x200 : 0 < S256x200.numel
  slices_S256x200_o0_0_S256x1 : S256x200.Slices ![0, 0] S256x1
  broadcasts_S256x1_S256x1280 : S256x1.Broadcasts S256x1280
  broadcasts_S1x1280_S256x1280 : S1x1280.Broadcasts S256x1280
  natLt_1_32 : 1 < 32
  slices_S256x200_o0_1_S256x1 : S256x200.Slices ![0, 1] S256x1
  slices_S256x200_o0_2_S256x1 : S256x200.Slices ![0, 2] S256x1
  slices_S256x200_o0_3_S256x1 : S256x200.Slices ![0, 3] S256x1
  slices_S256x200_o0_4_S256x1 : S256x200.Slices ![0, 4] S256x1
  slices_S256x200_o0_5_S256x1 : S256x200.Slices ![0, 5] S256x1
  slices_S256x200_o0_6_S256x1 : S256x200.Slices ![0, 6] S256x1
  slices_S256x200_o0_7_S256x1 : S256x200.Slices ![0, 7] S256x1
  slices_S256x200_o0_8_S256x1 : S256x200.Slices ![0, 8] S256x1
  slices_S256x200_o0_9_S256x1 : S256x200.Slices ![0, 9] S256x1
  slices_S256x200_o0_10_S256x1 : S256x200.Slices ![0, 10] S256x1
  slices_S256x200_o0_11_S256x1 : S256x200.Slices ![0, 11] S256x1
  slices_S256x200_o0_12_S256x1 : S256x200.Slices ![0, 12] S256x1
  slices_S256x200_o0_13_S256x1 : S256x200.Slices ![0, 13] S256x1
  slices_S256x200_o0_14_S256x1 : S256x200.Slices ![0, 14] S256x1
  slices_S256x200_o0_15_S256x1 : S256x200.Slices ![0, 15] S256x1
  slices_S256x200_o0_16_S256x1 : S256x200.Slices ![0, 16] S256x1
  slices_S256x200_o0_17_S256x1 : S256x200.Slices ![0, 17] S256x1
  slices_S256x200_o0_18_S256x1 : S256x200.Slices ![0, 18] S256x1
  slices_S256x200_o0_19_S256x1 : S256x200.Slices ![0, 19] S256x1
  slices_S256x200_o0_20_S256x1 : S256x200.Slices ![0, 20] S256x1
  slices_S256x200_o0_21_S256x1 : S256x200.Slices ![0, 21] S256x1
  slices_S256x200_o0_22_S256x1 : S256x200.Slices ![0, 22] S256x1
  slices_S256x200_o0_23_S256x1 : S256x200.Slices ![0, 23] S256x1
  slices_S256x200_o0_24_S256x1 : S256x200.Slices ![0, 24] S256x1
  slices_S256x200_o0_25_S256x1 : S256x200.Slices ![0, 25] S256x1
  slices_S256x200_o0_26_S256x1 : S256x200.Slices ![0, 26] S256x1
  slices_S256x200_o0_27_S256x1 : S256x200.Slices ![0, 27] S256x1
  slices_S256x200_o0_28_S256x1 : S256x200.Slices ![0, 28] S256x1
  slices_S256x200_o0_29_S256x1 : S256x200.Slices ![0, 29] S256x1
  slices_S256x200_o0_30_S256x1 : S256x200.Slices ![0, 30] S256x1
  slices_S256x200_o0_31_S256x1 : S256x200.Slices ![0, 31] S256x1
  slices_S256x200_o0_32_S256x1 : S256x200.Slices ![0, 32] S256x1
  slices_S256x200_o0_33_S256x1 : S256x200.Slices ![0, 33] S256x1
  slices_S256x200_o0_34_S256x1 : S256x200.Slices ![0, 34] S256x1
  slices_S256x200_o0_35_S256x1 : S256x200.Slices ![0, 35] S256x1
  slices_S256x200_o0_36_S256x1 : S256x200.Slices ![0, 36] S256x1
  slices_S256x200_o0_37_S256x1 : S256x200.Slices ![0, 37] S256x1
  slices_S256x200_o0_38_S256x1 : S256x200.Slices ![0, 38] S256x1
  slices_S256x200_o0_39_S256x1 : S256x200.Slices ![0, 39] S256x1
  slices_S256x200_o0_40_S256x1 : S256x200.Slices ![0, 40] S256x1
  slices_S256x200_o0_41_S256x1 : S256x200.Slices ![0, 41] S256x1
  slices_S256x200_o0_42_S256x1 : S256x200.Slices ![0, 42] S256x1
  slices_S256x200_o0_43_S256x1 : S256x200.Slices ![0, 43] S256x1
  slices_S256x200_o0_44_S256x1 : S256x200.Slices ![0, 44] S256x1
  slices_S256x200_o0_45_S256x1 : S256x200.Slices ![0, 45] S256x1
  slices_S256x200_o0_46_S256x1 : S256x200.Slices ![0, 46] S256x1
  slices_S256x200_o0_47_S256x1 : S256x200.Slices ![0, 47] S256x1
  slices_S256x200_o0_48_S256x1 : S256x200.Slices ![0, 48] S256x1
  slices_S256x200_o0_49_S256x1 : S256x200.Slices ![0, 49] S256x1
  slices_S256x200_o0_50_S256x1 : S256x200.Slices ![0, 50] S256x1
  slices_S256x200_o0_51_S256x1 : S256x200.Slices ![0, 51] S256x1
  slices_S256x200_o0_52_S256x1 : S256x200.Slices ![0, 52] S256x1
  slices_S256x200_o0_53_S256x1 : S256x200.Slices ![0, 53] S256x1
  slices_S256x200_o0_54_S256x1 : S256x200.Slices ![0, 54] S256x1
  slices_S256x200_o0_55_S256x1 : S256x200.Slices ![0, 55] S256x1
  slices_S256x200_o0_56_S256x1 : S256x200.Slices ![0, 56] S256x1
  slices_S256x200_o0_57_S256x1 : S256x200.Slices ![0, 57] S256x1
  slices_S256x200_o0_58_S256x1 : S256x200.Slices ![0, 58] S256x1
  slices_S256x200_o0_59_S256x1 : S256x200.Slices ![0, 59] S256x1
  slices_S256x200_o0_60_S256x1 : S256x200.Slices ![0, 60] S256x1
  slices_S256x200_o0_61_S256x1 : S256x200.Slices ![0, 61] S256x1
  slices_S256x200_o0_62_S256x1 : S256x200.Slices ![0, 62] S256x1
  slices_S256x200_o0_63_S256x1 : S256x200.Slices ![0, 63] S256x1
  slices_S256x200_o0_64_S256x1 : S256x200.Slices ![0, 64] S256x1
  slices_S256x200_o0_65_S256x1 : S256x200.Slices ![0, 65] S256x1
  slices_S256x200_o0_66_S256x1 : S256x200.Slices ![0, 66] S256x1
  slices_S256x200_o0_67_S256x1 : S256x200.Slices ![0, 67] S256x1
  slices_S256x200_o0_68_S256x1 : S256x200.Slices ![0, 68] S256x1
  slices_S256x200_o0_69_S256x1 : S256x200.Slices ![0, 69] S256x1
  slices_S256x200_o0_70_S256x1 : S256x200.Slices ![0, 70] S256x1
  slices_S256x200_o0_71_S256x1 : S256x200.Slices ![0, 71] S256x1
  slices_S256x200_o0_72_S256x1 : S256x200.Slices ![0, 72] S256x1
  slices_S256x200_o0_73_S256x1 : S256x200.Slices ![0, 73] S256x1
  slices_S256x200_o0_74_S256x1 : S256x200.Slices ![0, 74] S256x1
  slices_S256x200_o0_75_S256x1 : S256x200.Slices ![0, 75] S256x1
  slices_S256x200_o0_76_S256x1 : S256x200.Slices ![0, 76] S256x1
  slices_S256x200_o0_77_S256x1 : S256x200.Slices ![0, 77] S256x1
  slices_S256x200_o0_78_S256x1 : S256x200.Slices ![0, 78] S256x1
  slices_S256x200_o0_79_S256x1 : S256x200.Slices ![0, 79] S256x1
  slices_S256x200_o0_80_S256x1 : S256x200.Slices ![0, 80] S256x1
  slices_S256x200_o0_81_S256x1 : S256x200.Slices ![0, 81] S256x1
  slices_S256x200_o0_82_S256x1 : S256x200.Slices ![0, 82] S256x1
  slices_S256x200_o0_83_S256x1 : S256x200.Slices ![0, 83] S256x1
  slices_S256x200_o0_84_S256x1 : S256x200.Slices ![0, 84] S256x1
  slices_S256x200_o0_85_S256x1 : S256x200.Slices ![0, 85] S256x1
  slices_S256x200_o0_86_S256x1 : S256x200.Slices ![0, 86] S256x1
  slices_S256x200_o0_87_S256x1 : S256x200.Slices ![0, 87] S256x1
  slices_S256x200_o0_88_S256x1 : S256x200.Slices ![0, 88] S256x1
  slices_S256x200_o0_89_S256x1 : S256x200.Slices ![0, 89] S256x1
  slices_S256x200_o0_90_S256x1 : S256x200.Slices ![0, 90] S256x1
  slices_S256x200_o0_91_S256x1 : S256x200.Slices ![0, 91] S256x1
  slices_S256x200_o0_92_S256x1 : S256x200.Slices ![0, 92] S256x1
  slices_S256x200_o0_93_S256x1 : S256x200.Slices ![0, 93] S256x1
  slices_S256x200_o0_94_S256x1 : S256x200.Slices ![0, 94] S256x1
  slices_S256x200_o0_95_S256x1 : S256x200.Slices ![0, 95] S256x1
  slices_S256x200_o0_96_S256x1 : S256x200.Slices ![0, 96] S256x1
  slices_S256x200_o0_97_S256x1 : S256x200.Slices ![0, 97] S256x1
  slices_S256x200_o0_98_S256x1 : S256x200.Slices ![0, 98] S256x1
  slices_S256x200_o0_99_S256x1 : S256x200.Slices ![0, 99] S256x1
  slices_S256x200_o0_100_S256x1 : S256x200.Slices ![0, 100] S256x1
  slices_S256x200_o0_101_S256x1 : S256x200.Slices ![0, 101] S256x1
  slices_S256x200_o0_102_S256x1 : S256x200.Slices ![0, 102] S256x1
  slices_S256x200_o0_103_S256x1 : S256x200.Slices ![0, 103] S256x1
  slices_S256x200_o0_104_S256x1 : S256x200.Slices ![0, 104] S256x1
  slices_S256x200_o0_105_S256x1 : S256x200.Slices ![0, 105] S256x1
  slices_S256x200_o0_106_S256x1 : S256x200.Slices ![0, 106] S256x1
  slices_S256x200_o0_107_S256x1 : S256x200.Slices ![0, 107] S256x1
  slices_S256x200_o0_108_S256x1 : S256x200.Slices ![0, 108] S256x1
  slices_S256x200_o0_109_S256x1 : S256x200.Slices ![0, 109] S256x1
  slices_S256x200_o0_110_S256x1 : S256x200.Slices ![0, 110] S256x1
  slices_S256x200_o0_111_S256x1 : S256x200.Slices ![0, 111] S256x1
  slices_S256x200_o0_112_S256x1 : S256x200.Slices ![0, 112] S256x1
  slices_S256x200_o0_113_S256x1 : S256x200.Slices ![0, 113] S256x1
  slices_S256x200_o0_114_S256x1 : S256x200.Slices ![0, 114] S256x1
  slices_S256x200_o0_115_S256x1 : S256x200.Slices ![0, 115] S256x1
  slices_S256x200_o0_116_S256x1 : S256x200.Slices ![0, 116] S256x1
  slices_S256x200_o0_117_S256x1 : S256x200.Slices ![0, 117] S256x1
  slices_S256x200_o0_118_S256x1 : S256x200.Slices ![0, 118] S256x1
  slices_S256x200_o0_119_S256x1 : S256x200.Slices ![0, 119] S256x1
  slices_S256x200_o0_120_S256x1 : S256x200.Slices ![0, 120] S256x1
  slices_S256x200_o0_121_S256x1 : S256x200.Slices ![0, 121] S256x1
  slices_S256x200_o0_122_S256x1 : S256x200.Slices ![0, 122] S256x1
  slices_S256x200_o0_123_S256x1 : S256x200.Slices ![0, 123] S256x1
  slices_S256x200_o0_124_S256x1 : S256x200.Slices ![0, 124] S256x1
  slices_S256x200_o0_125_S256x1 : S256x200.Slices ![0, 125] S256x1
  slices_S256x200_o0_126_S256x1 : S256x200.Slices ![0, 126] S256x1
  slices_S256x200_o0_127_S256x1 : S256x200.Slices ![0, 127] S256x1
  slices_S256x200_o0_128_S256x1 : S256x200.Slices ![0, 128] S256x1
  slices_S256x200_o0_129_S256x1 : S256x200.Slices ![0, 129] S256x1
  slices_S256x200_o0_130_S256x1 : S256x200.Slices ![0, 130] S256x1
  slices_S256x200_o0_131_S256x1 : S256x200.Slices ![0, 131] S256x1
  slices_S256x200_o0_132_S256x1 : S256x200.Slices ![0, 132] S256x1
  slices_S256x200_o0_133_S256x1 : S256x200.Slices ![0, 133] S256x1
  slices_S256x200_o0_134_S256x1 : S256x200.Slices ![0, 134] S256x1
  slices_S256x200_o0_135_S256x1 : S256x200.Slices ![0, 135] S256x1
  slices_S256x200_o0_136_S256x1 : S256x200.Slices ![0, 136] S256x1
  slices_S256x200_o0_137_S256x1 : S256x200.Slices ![0, 137] S256x1
  slices_S256x200_o0_138_S256x1 : S256x200.Slices ![0, 138] S256x1
  slices_S256x200_o0_139_S256x1 : S256x200.Slices ![0, 139] S256x1
  slices_S256x200_o0_140_S256x1 : S256x200.Slices ![0, 140] S256x1
  slices_S256x200_o0_141_S256x1 : S256x200.Slices ![0, 141] S256x1
  slices_S256x200_o0_142_S256x1 : S256x200.Slices ![0, 142] S256x1
  slices_S256x200_o0_143_S256x1 : S256x200.Slices ![0, 143] S256x1
  slices_S256x200_o0_144_S256x1 : S256x200.Slices ![0, 144] S256x1
  slices_S256x200_o0_145_S256x1 : S256x200.Slices ![0, 145] S256x1
  slices_S256x200_o0_146_S256x1 : S256x200.Slices ![0, 146] S256x1
  slices_S256x200_o0_147_S256x1 : S256x200.Slices ![0, 147] S256x1
  slices_S256x200_o0_148_S256x1 : S256x200.Slices ![0, 148] S256x1
  slices_S256x200_o0_149_S256x1 : S256x200.Slices ![0, 149] S256x1
  slices_S256x200_o0_150_S256x1 : S256x200.Slices ![0, 150] S256x1
  slices_S256x200_o0_151_S256x1 : S256x200.Slices ![0, 151] S256x1
  slices_S256x200_o0_152_S256x1 : S256x200.Slices ![0, 152] S256x1
  slices_S256x200_o0_153_S256x1 : S256x200.Slices ![0, 153] S256x1
  slices_S256x200_o0_154_S256x1 : S256x200.Slices ![0, 154] S256x1
  slices_S256x200_o0_155_S256x1 : S256x200.Slices ![0, 155] S256x1
  slices_S256x200_o0_156_S256x1 : S256x200.Slices ![0, 156] S256x1
  slices_S256x200_o0_157_S256x1 : S256x200.Slices ![0, 157] S256x1
  slices_S256x200_o0_158_S256x1 : S256x200.Slices ![0, 158] S256x1
  slices_S256x200_o0_159_S256x1 : S256x200.Slices ![0, 159] S256x1
  slices_S256x200_o0_160_S256x1 : S256x200.Slices ![0, 160] S256x1
  slices_S256x200_o0_161_S256x1 : S256x200.Slices ![0, 161] S256x1
  slices_S256x200_o0_162_S256x1 : S256x200.Slices ![0, 162] S256x1
  slices_S256x200_o0_163_S256x1 : S256x200.Slices ![0, 163] S256x1
  slices_S256x200_o0_164_S256x1 : S256x200.Slices ![0, 164] S256x1
  slices_S256x200_o0_165_S256x1 : S256x200.Slices ![0, 165] S256x1
  slices_S256x200_o0_166_S256x1 : S256x200.Slices ![0, 166] S256x1
  slices_S256x200_o0_167_S256x1 : S256x200.Slices ![0, 167] S256x1
  slices_S256x200_o0_168_S256x1 : S256x200.Slices ![0, 168] S256x1
  slices_S256x200_o0_169_S256x1 : S256x200.Slices ![0, 169] S256x1
  slices_S256x200_o0_170_S256x1 : S256x200.Slices ![0, 170] S256x1
  slices_S256x200_o0_171_S256x1 : S256x200.Slices ![0, 171] S256x1
  slices_S256x200_o0_172_S256x1 : S256x200.Slices ![0, 172] S256x1
  slices_S256x200_o0_173_S256x1 : S256x200.Slices ![0, 173] S256x1
  slices_S256x200_o0_174_S256x1 : S256x200.Slices ![0, 174] S256x1
  slices_S256x200_o0_175_S256x1 : S256x200.Slices ![0, 175] S256x1
  slices_S256x200_o0_176_S256x1 : S256x200.Slices ![0, 176] S256x1
  slices_S256x200_o0_177_S256x1 : S256x200.Slices ![0, 177] S256x1
  slices_S256x200_o0_178_S256x1 : S256x200.Slices ![0, 178] S256x1
  slices_S256x200_o0_179_S256x1 : S256x200.Slices ![0, 179] S256x1
  slices_S256x200_o0_180_S256x1 : S256x200.Slices ![0, 180] S256x1
  slices_S256x200_o0_181_S256x1 : S256x200.Slices ![0, 181] S256x1
  slices_S256x200_o0_182_S256x1 : S256x200.Slices ![0, 182] S256x1
  slices_S256x200_o0_183_S256x1 : S256x200.Slices ![0, 183] S256x1
  slices_S256x200_o0_184_S256x1 : S256x200.Slices ![0, 184] S256x1
  slices_S256x200_o0_185_S256x1 : S256x200.Slices ![0, 185] S256x1
  slices_S256x200_o0_186_S256x1 : S256x200.Slices ![0, 186] S256x1
  slices_S256x200_o0_187_S256x1 : S256x200.Slices ![0, 187] S256x1
  slices_S256x200_o0_188_S256x1 : S256x200.Slices ![0, 188] S256x1
  slices_S256x200_o0_189_S256x1 : S256x200.Slices ![0, 189] S256x1
  slices_S256x200_o0_190_S256x1 : S256x200.Slices ![0, 190] S256x1
  slices_S256x200_o0_191_S256x1 : S256x200.Slices ![0, 191] S256x1
  slices_S256x200_o0_192_S256x1 : S256x200.Slices ![0, 192] S256x1
  slices_S256x200_o0_193_S256x1 : S256x200.Slices ![0, 193] S256x1
  slices_S256x200_o0_194_S256x1 : S256x200.Slices ![0, 194] S256x1
  slices_S256x200_o0_195_S256x1 : S256x200.Slices ![0, 195] S256x1
  slices_S256x200_o0_196_S256x1 : S256x200.Slices ![0, 196] S256x1
  slices_S256x200_o0_197_S256x1 : S256x200.Slices ![0, 197] S256x1
  slices_S256x200_o0_198_S256x1 : S256x200.Slices ![0, 198] S256x1
  slices_S256x200_o0_199_S256x1 : S256x200.Slices ![0, 199] S256x1
  inb_S9x1280_S9x1280_0_0 : ∀ a, (![0, 0] : Fin 2 → Nat) a + S9x1280.size a ≤ S9x1280.size a
  h_S9x1280 : 0 < S9x1280.numel
  transposes_S9x1280_p1_0_S1280x9 : S9x1280.Transposes [1, 0] S1280x9
  inb_S1x9_S1x9_0_0 : ∀ a, (![0, 0] : Fin 2 → Nat) a + S1x9.size a ≤ S1x9.size a
  h_S1x9 : 0 < S1x9.numel
  shapeCasts_S1x9_S1x9 : S1x9.ShapeCasts S1x9
  broadcasts_S1x9_S256x9 : S1x9.Broadcasts S256x9
  reduces_S256x9_S256 : S256x9.Reduces [1] S256
  shapeCasts_S256_S256x1 : S256.ShapeCasts S256x1
  broadcasts_S256x1_S256x9 : S256x1.Broadcasts S256x9
  dot_S256x1280_S1280x9_S256x9_1_0_0_1_n_n_wf : DotDims.WF S256x1280 S1280x9 S256x9 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x200.size a ≤ S2048x200.size a
  hwx0_0 : ∀ i : grid0.Coords, EltTy.bits .i32 = 32 ∨ (Rect.block (s := S2048x200) S256x200.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S9x1280.size a ≤ S9x32000.size a
  hwx0_1 : ∀ i : grid0.Coords, EltTy.bits .f32 = 32 ∨ (Rect.block (s := S9x32000) S9x1280.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x9.size a ≤ S1x9.size a
  hwx0_2 : ∀ i : grid0.Coords, EltTy.bits .f32 = 32 ∨ (Rect.block (s := S1x9) S1x9.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x9.size a ≤ S2048x9.size a
  hwx0_3 : ∀ i : grid0.Coords, EltTy.bits .f32 = 32 ∨ (Rect.block (s := S2048x9) S256x9.size (cc0_transform_3 i) (hinb0_3 i)).WholeWords (EltTy.packing .f32)

variable [Facts₀]

def dot_S256x1280_S1280x9_S256x9_1_0_0_1_n_n : DotDims S256x1280 S1280x9 S256x9 where
  lhsContracting := [1]
  rhsContracting := [0]
  lhsNonContracting := [0]
  rhsNonContracting := [1]
  lhsBatch := []
  rhsBatch := []
  wf := dot_S256x1280_S1280x9_S256x9_1_0_0_1_n_n_wf

abbrev win0_0 : Pipeline.Window sig grid0 :=
  Pipeline.Window.ofSpec (Memref.whole main_arg0) S256x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S9x1280.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x9.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S256x9.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S2048x200 : Shape := ⟨2, ![2048, 200]⟩
abbrev S9x32000 : Shape := ⟨2, ![9, 32000]⟩
abbrev S9 : Shape := ⟨1, ![9]⟩
abbrev S_ : Shape := ⟨0, ![]⟩
abbrev S2048x32000 : Shape := ⟨2, ![2048, 32000]⟩
abbrev S2048 : Shape := ⟨1, ![2048]⟩
abbrev S2048x1 : Shape := ⟨2, ![2048, 1]⟩
abbrev S2048x200x1 : Shape := ⟨3, ![2048, 200, 1]⟩
abbrev S2048x200x2 : Shape := ⟨3, ![2048, 200, 2]⟩
abbrev S32000x9 : Shape := ⟨2, ![32000, 9]⟩
abbrev S2048x9 : Shape := ⟨2, ![2048, 9]⟩
abbrev S1x9 : Shape := ⟨2, ![1, 9]⟩

abbrev nBuf : Space → Nat
  | .hbm => 47
  | .vmem => 0
  | .smem => 0
  | _ => 0

abbrev bufTy : (tb : Table) → Fin (tcTables nBuf tb) → BufTy
  | .hbm, ⟨0, _⟩ => ⟨S2048x200, .i32⟩
  | .hbm, ⟨1, _⟩ => ⟨S9x32000, .f32⟩
  | .hbm, ⟨2, _⟩ => ⟨S9, .f32⟩
  | .hbm, ⟨3, _⟩ => ⟨S_, .f32⟩
  | .hbm, ⟨4, _⟩ => ⟨S2048x32000, .f32⟩
  | .hbm, ⟨5, _⟩ => ⟨S2048, .i32⟩
  | .hbm, ⟨6, _⟩ => ⟨S2048x1, .i32⟩
  | .hbm, ⟨7, _⟩ => ⟨S_, .i32⟩
  | .hbm, ⟨8, _⟩ => ⟨S2048x1, .i32⟩
  | .hbm, ⟨9, _⟩ => ⟨S2048x1, .i1⟩
  | .hbm, ⟨10, _⟩ => ⟨S_, .i32⟩
  | .hbm, ⟨11, _⟩ => ⟨S2048x1, .i32⟩
  | .hbm, ⟨12, _⟩ => ⟨S2048x1, .i32⟩
  | .hbm, ⟨13, _⟩ => ⟨S2048x1, .i32⟩
  | .hbm, ⟨14, _⟩ => ⟨S_, .i32⟩
  | .hbm, ⟨15, _⟩ => ⟨S2048x200, .i32⟩
  | .hbm, ⟨16, _⟩ => ⟨S2048x200, .i1⟩
  | .hbm, ⟨17, _⟩ => ⟨S_, .i32⟩
  | .hbm, ⟨18, _⟩ => ⟨S2048x200, .i32⟩
  | .hbm, ⟨19, _⟩ => ⟨S2048x200, .i32⟩
  | .hbm, ⟨20, _⟩ => ⟨S2048x200, .i32⟩
  | .hbm, ⟨21, _⟩ => ⟨S2048x200, .i32⟩
  | .hbm, ⟨22, _⟩ => ⟨S2048x200x1, .i32⟩
  | .hbm, ⟨23, _⟩ => ⟨S2048x200x1, .i32⟩
  | .hbm, ⟨24, _⟩ => ⟨S2048x200x2, .i32⟩
  | .hbm, ⟨25, _⟩ => ⟨S_, .f32⟩
  | .hbm, ⟨26, _⟩ => ⟨S2048x200, .f32⟩
  | .hbm, ⟨27, _⟩ => ⟨S2048x32000, .f32⟩
  | .hbm, ⟨28, _⟩ => ⟨S32000x9, .f32⟩
  | .hbm, ⟨29, _⟩ => ⟨S2048x9, .f32⟩
  | .hbm, ⟨30, _⟩ => ⟨S1x9, .f32⟩
  | .hbm, ⟨31, _⟩ => ⟨S2048x9, .f32⟩
  | .hbm, ⟨32, _⟩ => ⟨S2048x9, .f32⟩
  | .hbm, ⟨33, _⟩ => ⟨S_, .f32⟩
  | .hbm, ⟨34, _⟩ => ⟨S2048, .f32⟩
  | .hbm, ⟨35, _⟩ => ⟨S_, .f32⟩
  | .hbm, ⟨36, _⟩ => ⟨S2048, .f32⟩
  | .hbm, ⟨37, _⟩ => ⟨S2048, .f32⟩
  | .hbm, ⟨38, _⟩ => ⟨S2048x1, .f32⟩
  | .hbm, ⟨39, _⟩ => ⟨S2048x9, .f32⟩
  | .hbm, ⟨40, _⟩ => ⟨S2048x9, .f32⟩
  | .hbm, ⟨41, _⟩ => ⟨S2048x9, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S2048x9, .f32⟩
  | .hbm, ⟨46, _⟩ => ⟨S2048x9, .f32⟩
  | _, _ => ⟨S2048x200, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩

abbrev nD : Nat := 1
abbrev τ : Topo := Topo.v7x

variable {F : FTy → Type} [FloatOps F]

class Facts₀ : Prop where
  bcast_S_S2048x32000 : S_.BroadcastsInDim S2048x32000 (![] : Fin 0 → Fin S2048x32000.rank)
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S_S2048x200 : S_.BroadcastsInDim S2048x200 (![] : Fin 0 → Fin S2048x200.rank)
  bcast_S2048x1_S2048x200_0_1 : S2048x1.BroadcastsInDim S2048x200 (![0, 1] : Fin 2 → Fin S2048x200.rank)
  bcast_S2048x200_S2048x200x1_0_1 : S2048x200.BroadcastsInDim S2048x200x1 (![0, 1] : Fin 2 → Fin S2048x200x1.rank)
  concatenates_S2048x200x1_S2048x200x1_S2048x200x2_d2 : Shape.Concatenates [S2048x200x1, S2048x200x1] S2048x200x2 2
  transposes_S9x32000_S32000x9_1_0 : S9x32000.Transposes [1, 0] S32000x9
  bcast_S9_S1x9_1 : S9.BroadcastsInDim S1x9 (![1] : Fin 1 → Fin S1x9.rank)
  bcast_S1x9_S2048x9_0_1 : S1x9.BroadcastsInDim S2048x9 (![0, 1] : Fin 2 → Fin S2048x9.rank)
  reducesTo_S2048x9_S2048_d1 : S2048x9.ReducesTo [1] S2048
  h_S_ : 0 < S_.numel
  bcast_S_S2048 : S_.BroadcastsInDim S2048 (![] : Fin 0 → Fin S2048.rank)
  bcast_S2048x1_S2048x9_0_1 : S2048x1.BroadcastsInDim S2048x9 (![0, 1] : Fin 2 → Fin S2048x9.rank)
  scatter_S2048x32000_S2048x200x2_S2048x200_n_01_01_2_wf : ScatterDims.WF S2048x32000 S2048x200x2 S2048x200 [] [0, 1] [0, 1] 2
  dot_S2048x32000_S32000x9_S2048x9_1_0_0_1_n_n_wf : DotDims.WF S2048x32000 S32000x9 S2048x9 [1] [0] [0] [1] [] []

variable [Facts₀]

def scatter_S2048x32000_S2048x200x2_S2048x200_n_01_01_2 : ScatterDims S2048x32000 S2048x200x2 S2048x200 where
  updateWindowDims := []
  insertedWindowDims := [0, 1]
  scatterDimsToOperandDims := [0, 1]
  indexVectorDim := 2
  wf := scatter_S2048x32000_S2048x200x2_S2048x200_n_01_01_2_wf
def dot_S2048x32000_S32000x9_S2048x9_1_0_0_1_n_n : DotDims S2048x32000 S32000x9 S2048x9 where
  lhsContracting := [1]
  rhsContracting := [0]
  lhsNonContracting := [0]
  rhsNonContracting := [1]
  lhsBatch := []
  rhsBatch := []
  wf := dot_S2048x32000_S32000x9_S2048x9_1_0_0_1_n_n_wf

class Facts : Prop extends Facts₀ where

variable [Facts]
-- ==== Proof.Spec.lean ====
/-
  What both programs compute, as one function of the three argument arrays.

  `ids` is a 2048 × 200 matrix of 32-bit words, `W` a 9 × 32000 matrix and `b` a vector of 9 extended reals.
  Row `r` of the result is the softmax of the nine logits

      logit r c = (∑ v, count r v · W c v) + b c,      count r v = #{ l | ids r l is the word of v },

  the count written as a sum of zero-or-one terms.  A word of `ids` that is the word of no `v < 32000` is counted
  nowhere.  The softmax is taken as both programs take it: subtract the row's maximum (folded from −∞ and joined
  with −∞ once more), exponentiate, divide by the row's sum.
-/
import Idealize.ShloMosaic.PureOps.Ideal
import Idealize.ShloMosaic.Lib.ValueIdx
import Idealize.ShloMosaic.Lib.IdealHost

noncomputable section

open scoped BigOperators
open Idealize.ShloMosaic Idealize.ShloMosaic.ValueIdx

namespace Cert.Spec

/-- The matrix of word ids. -/
abbrev Ids := (⟨2, ![2048, 200]⟩ : Shape).Idx → BitVec 32
/-- The weight matrix, one row per class. -/
abbrev Wt := (⟨2, ![9, 32000]⟩ : Shape).Idx → EReal
/-- The bias vector. -/
abbrev Bias := (⟨1, ![9]⟩ : Shape).Idx → EReal

/-- One if the two words are equal, zero otherwise. -/
def hit (a b : BitVec 32) : EReal := if a = b then 1 else 0

/-- A comparison for equality, widened to a word and read as a signed integer, is that zero or one. -/
theorem sitofp_extui_cmpi_eq (a b : BitVec 32) :
    (((BitVec.setWidth 32 (IntOp.cmpi .eq a b)).toInt : ℝ) : EReal) = hit a b := by
  unfold hit IntOp.cmpi
  by_cases h : a = b
  · subst h; simp
  · have hb : (a == b) = false := by simpa using h
    simp [hb, h]

/-- How often the word of `v` occurs in row `r`. -/
def count (ids : Ids) (r : Fin 2048) (v : Fin 32000) : EReal :=
  ∑ l : Fin 200, hit (ids (ix2 r l)) (BitVec.ofNat 32 v.val)

/-- The logit of class `c` in row `r`. -/
def logit (ids : Ids) (W : Wt) (b : Bias) (r : Fin 2048) (c : Fin 9) : EReal :=
  (∑ v : Fin 32000, count ids r v * W (ix2 c v)) + b (ix1 c)

/-- The maximum both programs subtract: the fold of `max` over the nine logits from −∞, joined with −∞ once more. -/
def rowMax (lg : Fin 9 → EReal) : EReal :=
  max (Ideal.ofBits .f32 0xFF800000#32) ((Finset.univ : Finset (Fin 9)).fold max (Ideal.ofBits .f32 0xFF800000#32) lg)

/-- The softmax of nine logits at class `c`. -/
def softmaxRow (lg : Fin 9 → EReal) (c : Fin 9) : EReal :=
  Ideal.div (Ideal.exp (lg c - rowMax lg)) (∑ c' : Fin 9, Ideal.exp (lg c' - rowMax lg))

/-- The whole result. -/
def G (ids : Ids) (W : Wt) (b : Bias) : (⟨2, ![2048, 9]⟩ : Shape).Idx → EReal :=
  fun i => softmaxRow (fun c => logit ids W b ⟨(i 0).val, (i 0).isLt⟩ c) ⟨(i 1).val, (i 1).isLt⟩

theorem G_ix2 (ids : Ids) (W : Wt) (b : Bias) (r : Fin 2048) (c : Fin 9) :
    G ids W b (ix2 r c) = softmaxRow (fun c' => logit ids W b r c') c := rfl

end Cert.Spec

end
-- ==== Proof.Bow.lean ====
/-
  The kernel's bag-of-words block, read at one element.

  At a grid point the kernel holds a 256 × 200 block of word ids and a row of 1280 consecutive lane numbers
  (the vocabulary chunk the point works on).  For each of the 200 columns it slices the column out, spreads it
  across the lanes, spreads the lane numbers down the rows, compares, and adds the zero-or-one result to a running
  256 × 1280 matrix that starts at zero.  Read at row `r` and lane `q`, the running matrix after all columns is
  the number of columns `l` with `ids r l` equal to lane `q`'s number: a sum of 200 zero-or-one terms.

  The block is then multiplied by the transposed 9 × 1280 chunk of the weights and added to what the scratch held:
  at row `r` and class `c`, the scratch entry plus the sum over lanes of count times weight.
-/
import proofs.«410889_j3547642986554_1_alg».proof.Proof.Gen.KernelIdeal.Skeleton
import proofs.«410889_j3547642986554_1_alg».proof.Proof.Spec
import Idealize.ShloMosaic.Lib.Pipeline.Value
import Idealize.ShloMosaic.Lib.ValueIdx
import Idealize.ShloMosaic.PureOps.Ideal.Laws
import Idealize.ShloMosaic.Lib.IdealHost

set_option maxRecDepth 16384

noncomputable section

open scoped BigOperators

namespace Cert.KernelIdeal.Bow

open Cert.KernelIdeal Cert.KernelIdeal.Gen Idealize.ShloMosaic Idealize.ShloMosaic.ValueIdx Cert.Spec

variable [Facts]

/-! ## The layout operations of one compare step, read at an element -/

/-- Entry `(r, l)` of a 256 × 200 block of words; the zero word for a column number past the last column. -/
def colv (v7 : S256x200.Idx → BitVec 32) (r : Fin 256) (l : Nat) : BitVec 32 :=
  if hl : l < 200 then v7 (ix2 r ⟨l, hl⟩) else 0#32

/-- Column `l` sliced out of the block, read at row `r`. -/
theorem slice_col (v7 : S256x200.Idx → BitVec 32) (l : Nat) (h : S256x200.Slices ![0, l] S256x1) (r : Fin 256) :
    extractStridedSlice S256x1 ![0, l] v7 h (ix2 r 0) = colv v7 r l := by
  have hl : l < 200 := by
    have h1 := h.2 (1 : Fin 2)
    have : l + 1 ≤ 200 := h1
    omega
  unfold colv
  rw [dif_pos hl]
  exact extractStridedSlice_apply _ v7 h _ _ (fun a => by
    match a with
    | ⟨0, _⟩ => show r.val = 0 + r.val; omega
    | ⟨1, _⟩ => rfl)

/-- A column spread across the lanes, read at `(r, q)`: the column at row `r`. -/
theorem bcast_col {α : Type} (x : S256x1.Idx → α) (h : S256x1.Broadcasts S256x1280) (r : Fin 256) (q : Fin 1280) :
    broadcastTo S256x1280 x h (ix2 r q) = x (ix2 r 0) :=
  broadcastTo_apply x h _ _ (fun a => by
    match a with
    | ⟨0, _⟩ => rfl
    | ⟨1, _⟩ => rfl)

/-- A row spread down the rows, read at `(r, q)`: the row at lane `q`. -/
theorem bcast_row {α : Type} (x : S1x1280.Idx → α) (h : S1x1280.Broadcasts S256x1280) (r : Fin 256) (q : Fin 1280) :
    broadcastTo S256x1280 x h (ix2 r q) = x (ix2 0 q) :=
  broadcastTo_apply x h _ _ (fun a => by
    match a with
    | ⟨0, _⟩ => rfl
    | ⟨1, _⟩ => rfl)

/-- A comparison at an element compares the elements. -/
theorem cmpi_apply {s : Shape} {w : Nat} (p : CmpIPredicate) (a b : IVec s w) (i : s.Idx) :
    cmpi p a b i = IntOp.cmpi p (a i) (b i) := rfl

/-- One compare step's contribution at an element: one if the column entry is the lane's number, else zero. -/
theorem step_term (a b : BitVec 32) :
    FloatOps.sitofp (F := Ideal) .f32 (BitVec.setWidth 32 (IntOp.cmpi .eq a b)) = hit a b :=
  sitofp_extui_cmpi_eq a b

/-! ## The running matrix after 194 columns, as the kernel's parts hand it on -/

/-- The running matrix the kernel's last part starts from: the parts before it, each applied to what the part before
    left and to the value it took over in the middle of a compare step. -/
def chain {F : FTy → Type} [FloatOps F] (i : grid0.Coords) (v7 : Vec F S256x200 .i32) : FVec F S256x1280 .f32 :=
  k0_pay46 (k0_pay2 i) v7 (k0_pay45 (k0_pay2 i) v7 (k0_pay42 (k0_pay2 i) v7 (k0_pay40 (k0_pay2 i) v7 (k0_pay38 (k0_pay2
    i) v7 (k0_pay36 (k0_pay2 i) v7 (k0_pay34 (k0_pay2 i) v7 (k0_pay32 (k0_pay2 i) v7 (k0_pay31 (k0_pay2 i) v7
    (k0_pay28 (k0_pay2 i) v7 (k0_pay26 (k0_pay2 i) v7 (k0_pay24 (k0_pay2 i) v7 (k0_pay22 (k0_pay2 i) v7 (k0_pay20
    (k0_pay2 i) v7 (k0_pay18 (k0_pay2 i) v7 (k0_pay17 (k0_pay2 i) v7 (k0_pay14 (k0_pay2 i) v7 (k0_pay12 (k0_pay2 i) v7
    (k0_pay10 (k0_pay2 i) v7 (k0_pay8 (k0_pay2 i) v7 (k0_pay6 (k0_pay2 i) v7 (k0_pay4 (k0_pay2 i) v7 (k0_pay3 i v7))
    (k0_pay5 (k0_pay2 i) v7)) (k0_pay7 v7)) (k0_pay9 (k0_pay2 i) v7)) (k0_pay11 v7)) (k0_pay13 (k0_pay2 i) v7))
    (k0_pay15 v7) (k0_pay16 (k0_pay2 i)))) (k0_pay19 (k0_pay2 i) v7)) (k0_pay21 v7)) (k0_pay23 (k0_pay2 i) v7))
    (k0_pay25 v7)) (k0_pay27 (k0_pay2 i) v7)) (k0_pay29 v7) (k0_pay30 (k0_pay2 i)))) (k0_pay33 (k0_pay2 i) v7))
    (k0_pay35 v7)) (k0_pay37 (k0_pay2 i) v7)) (k0_pay39 v7)) (k0_pay41 (k0_pay2 i) v7)) (k0_pay43 v7) (k0_pay44
    (k0_pay2 i)))

/-! ## The weights' chunk, transposed, read at an element -/

/-- The transposed chunk at `(q, c)` is the chunk at `(c, q)`. -/
theorem transpose_chunk {α : Type} (x : S9x1280.Idx → α) (h : S9x1280.Transposes [1, 0] S1280x9) (q : Fin 1280) (c : Fin 9) :
    transpose S1280x9 [1, 0] x h (ix2 q c) = x (ix2 c q) :=
  transpose_apply _ x h _ _ (fun b => by
    match b with
    | ⟨0, _⟩ => rfl
    | ⟨1, _⟩ => rfl)

/-! ## The product's operand indices -/

theorem lhs_dot_0 (j : S256x9.Idx) (k : dot_S256x1280_S1280x9_S256x9_1_0_0_1_n_n.contr.Idx) :
    (dot_S256x1280_S1280x9_S256x9_1_0_0_1_n_n.lhsIdx j k 0).val = (j 0).val := by
  unfold DotDims.lhsIdx
  rw [dif_neg (show ¬(0 : Fin S256x1280.rank) ∈ dot_S256x1280_S1280x9_S256x9_1_0_0_1_n_n.lhsBatch by decide), dif_pos (show (0 : Fin S256x1280.rank) ∈ dot_S256x1280_S1280x9_S256x9_1_0_0_1_n_n.lhsNonContracting by decide)]
  rfl
theorem lhs_dot_1 (j : S256x9.Idx) (k : dot_S256x1280_S1280x9_S256x9_1_0_0_1_n_n.contr.Idx) :
    (dot_S256x1280_S1280x9_S256x9_1_0_0_1_n_n.lhsIdx j k 1).val = (k ⟨0, by decide⟩).val :=
  dot_S256x1280_S1280x9_S256x9_1_0_0_1_n_n.lhsIdx_val_of_single rfl j k
theorem rhs_dot_0 (j : S256x9.Idx) (k : dot_S256x1280_S1280x9_S256x9_1_0_0_1_n_n.contr.Idx) :
    (dot_S256x1280_S1280x9_S256x9_1_0_0_1_n_n.rhsIdx j k 0).val = (k ⟨0, by decide⟩).val :=
  dot_S256x1280_S1280x9_S256x9_1_0_0_1_n_n.rhsIdx_val_of_single rfl j k
theorem rhs_dot_1 (j : S256x9.Idx) (k : dot_S256x1280_S1280x9_S256x9_1_0_0_1_n_n.contr.Idx) :
    (dot_S256x1280_S1280x9_S256x9_1_0_0_1_n_n.rhsIdx j k 1).val = (j 1).val := by
  unfold DotDims.rhsIdx
  rw [dif_neg (show ¬(1 : Fin S1280x9.rank) ∈ dot_S256x1280_S1280x9_S256x9_1_0_0_1_n_n.rhsBatch by decide), dif_pos (show (1 : Fin S1280x9.rank) ∈ dot_S256x1280_S1280x9_S256x9_1_0_0_1_n_n.rhsNonContracting by decide)]
  rfl

/-- The product of a 256 × 1280 matrix with a 1280 × 9 one into a zero matrix, read at `(r, c)`: the sum over the
    1280 lanes. -/
theorem matmul_rc (lhs : FVec Ideal S256x1280 .f32) (rhs : FVec Ideal S1280x9 .f32) (r : Fin 256) (c : Fin 9) :
    matmul dot_S256x1280_S1280x9_S256x9_1_0_0_1_n_n none lhs rhs (constant S256x9 .f32 0x00000000#32) (ix2 r c)
      = ∑ q : Fin 1280, lhs (ix2 r q) * rhs (ix2 q c) := by
  simp only [matmul]
  rw [Ideal.matmul_constant_zero_apply, ← Equiv.sum_comp (ValueIdx.contrEquiv1 dot_S256x1280_S1280x9_S256x9_1_0_0_1_n_n 1280 rfl rfl).symm]
  refine Finset.sum_congr rfl fun k _ => ?_
  have hk := ValueIdx.contrEquiv1_symm_val dot_S256x1280_S1280x9_S256x9_1_0_0_1_n_n 1280 rfl rfl k
  have el : dot_S256x1280_S1280x9_S256x9_1_0_0_1_n_n.lhsIdx (ix2 r c) ((ValueIdx.contrEquiv1 dot_S256x1280_S1280x9_S256x9_1_0_0_1_n_n 1280 rfl rfl).symm k) = ix2 r k := funext fun a => Fin.ext (by
    match a with
    | ⟨0, _⟩ => exact lhs_dot_0 _ _
    | ⟨1, _⟩ => exact (lhs_dot_1 _ _).trans hk)
  have er : dot_S256x1280_S1280x9_S256x9_1_0_0_1_n_n.rhsIdx (ix2 r c) ((ValueIdx.contrEquiv1 dot_S256x1280_S1280x9_S256x9_1_0_0_1_n_n 1280 rfl rfl).symm k) = ix2 k c := funext fun a => Fin.ext (by
    match a with
    | ⟨0, _⟩ => exact (rhs_dot_0 _ _).trans hk
    | ⟨1, _⟩ => exact rhs_dot_1 _ _)
  rw [el, er]

/-! ## One grid point's update of the scratch, read at an element -/

/-- How often lane `q`'s number occurs in row `r` of the block: the 200 compare steps' contributions. -/
def laneCount (i : grid0.Coords) (v7 : S256x200.Idx → BitVec 32) (r : Fin 256) (q : Fin 1280) : EReal :=
  ∑ l ∈ Finset.range 200, hit (colv v7 r l) (k0_pay2 i (ix2 0 q))

set_option maxHeartbeats 8000000 in
/-- What a grid point stores into the scratch, at row `r` and class `c`: what the scratch held there plus the sum
    over the lanes of the lane's count in row `r` times the weight of class `c` at that lane. -/
theorem update_apply (i : grid0.Coords) (v7 : Vec Ideal S256x200 .i32) (x1 : Vec Ideal S9x1280 .f32)
    (acc : Vec Ideal S256x9 .f32) (r : Fin 256) (c : Fin 9) :
    k0_pay48 (F := Ideal) (k0_pay2 i) v7 (chain i v7) (k0_pay47 (k0_pay2 i) v7) x1 acc (ix2 r c)
      = acc (ix2 r c) + ∑ q : Fin 1280, laneCount i v7 r q * x1 (ix2 c q) := by
  unfold k0_pay48
  rw [shapeCast_self, addf_apply, matmul_rc]
  refine congrArg (acc (ix2 r c) + ·) (Finset.sum_congr rfl fun q _ => ?_)
  rw [transpose_chunk]
  refine congrArg (· * x1 (ix2 c q)) ?_
  unfold laneCount chain
  simp only [k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47,
    addf_apply, sitofp_apply, extui_apply, cmpi_apply, bcast_col, bcast_row, slice_col,
    broadcast_apply, step_term, Finset.sum_range_succ, Finset.sum_range_zero, Ideal.ofBits_def, Ideal.ofBits_zero_f32]

end Cert.KernelIdeal.Bow

end
-- ==== Proof.Pieces.lean ====
/-
  What one grid point leaves behind, case by case.

  The body has three cases.  At the first chunk of a row block it stores zeros into the scratch and then adds the
  chunk's product to it; at a middle chunk it adds the chunk's product to what the scratch held; at the last chunk
  it does the same and then stores the softmax of scratch plus bias into the output block.  Each case's stores,
  read back, are the body's arithmetic applied to the point's input blocks and to what the scratch held before.
-/
import proofs.«410889_j3547642986554_1_alg».proof.Proof.Gen.KernelIdeal.Frame
import proofs.«410889_j3547642986554_1_alg».proof.Proof.Bow
import Idealize.ShloMosaic.Lib.Pipeline.Value

set_option maxRecDepth 16384

noncomputable section

namespace Cert.KernelIdeal.Pieces

open Cert.KernelIdeal Cert.KernelIdeal.Gen Idealize.ShloMosaic Idealize.ShloMosaic.TcCoe Idealize.ShloMosaic.Tactic
open Idealize.SL Idealize.SL.Sem

variable {F : FTy → Type} [FloatOps F]

theorem hz : (![0, 0] : Fin 2 → Nat) = fun _ => 0 := funext fun a => by fin_cases a <;> rfl

/-- The scratch after a point, over what it held (`acc`): `acc` plus the product of the point's bag-of-words block
    (from the ids block `x0`) with the transposed weights' chunk `x1`. -/
def upd (i : grid0.Coords) (x0 : Vec F S256x200 .i32) (x1 : Vec F S9x1280 .f32) (acc : Vec F S256x9 .f32) :
    Vec F S256x9 .f32 :=
  k0_pay48 (k0_pay2 i) x0 (Bow.chain i x0) (k0_pay47 (k0_pay2 i) x0) x1 acc

/-- The zero block the first chunk stores into the scratch. -/
def zeros : Vec F S256x9 .f32 := k0_pay1

/-- A middle chunk leaves `upd` of what the scratch held. -/
theorem scratch_B (c : Dev nD) (i : grid0.Coords) (arg2 : Memref sig .tc .vmem S256x200 .i32) (harg2 : arg2.IsWhole) (arg3 : Memref sig .tc .vmem S9x1280 .f32) (harg3 : arg3.IsWhole) (arg4 : Memref sig .tc .vmem S1x9 .f32) (harg4 : arg4.IsWhole) (arg5 : Memref sig .tc .vmem S256x9 .f32) (harg5 : arg5.IsWhole) (arg6 : Memref sig .tc .vmem S256x9 .f32) (harg6 : arg6.IsWhole) (hc0 : ¬cond0_0 i) (hc1 : ¬cond0_1 i)
    (x0 : Vec F S256x200 .i32) (x1 : Vec F S9x1280 .f32) (x2 : Vec F S1x9 .f32) (xs0 : Vec F S256x9 .f32) :
    sout0_B_0 c i arg2 harg2 arg3 harg3 arg4 harg4 arg5 harg5 arg6 harg6 hc0 hc1 x0 x1 x2 xs0 = upd i x0 x1 xs0 := by
  unfold sout0_B_0
  rw [View.read_writes_eq_canon _ _ _ (scover0_B_0 c i arg2 harg2 arg3 harg3 arg4 harg4 arg5 harg5 arg6 harg6 hc0 hc1 x0 x1 x2 xs0)]
  unfold kernelRun0_B
  dsimp only
  sl_unfold_words
  rw [View.canon_unit_zero hz]
  unfold upd Bow.chain
  simp only [View.readAt_eq_ld, harg2.read_unread, harg3.read_unread, harg6.read_unread,
    View.ld_unit_zero (S := S256x200) hz, View.ld_unit_zero (S := S9x1280) hz, View.ld_unit_zero (S := S256x9) hz]

/-- The last chunk leaves the same in the scratch. -/
theorem scratch_C (c : Dev nD) (i : grid0.Coords) (arg2 : Memref sig .tc .vmem S256x200 .i32) (harg2 : arg2.IsWhole) (arg3 : Memref sig .tc .vmem S9x1280 .f32) (harg3 : arg3.IsWhole) (arg4 : Memref sig .tc .vmem S1x9 .f32) (harg4 : arg4.IsWhole) (arg5 : Memref sig .tc .vmem S256x9 .f32) (harg5 : arg5.IsWhole) (arg6 : Memref sig .tc .vmem S256x9 .f32) (harg6 : arg6.IsWhole) (hc0 : ¬cond0_0 i) (hc1 : cond0_1 i)
    (x0 : Vec F S256x200 .i32) (x1 : Vec F S9x1280 .f32) (x2 : Vec F S1x9 .f32) (xs0 : Vec F S256x9 .f32) :
    sout0_C_0 c i arg2 harg2 arg3 harg3 arg4 harg4 arg5 harg5 arg6 harg6 hc0 hc1 x0 x1 x2 xs0 = upd i x0 x1 xs0 := by
  unfold sout0_C_0
  rw [View.read_writes_eq_canon _ _ _ (scover0_C_0 c i arg2 harg2 arg3 harg3 arg4 harg4 arg5 harg5 arg6 harg6 hc0 hc1 x0 x1 x2 xs0)]
  unfold kernelRun0_C
  dsimp only
  sl_unfold_words
  rw [View.canon_unit_zero hz]
  unfold upd Bow.chain
  simp only [View.readAt_eq_ld, harg2.read_unread, harg3.read_unread, harg6.read_unread,
    View.ld_unit_zero (S := S256x200) hz, View.ld_unit_zero (S := S9x1280) hz, View.ld_unit_zero (S := S256x9) hz]

/-- The first chunk stores zeros into the scratch, reads them back, and leaves `upd` of the zero block. -/
theorem scratch_A (c : Dev nD) (i : grid0.Coords) (arg2 : Memref sig .tc .vmem S256x200 .i32) (harg2 : arg2.IsWhole) (arg3 : Memref sig .tc .vmem S9x1280 .f32) (harg3 : arg3.IsWhole) (arg4 : Memref sig .tc .vmem S1x9 .f32) (harg4 : arg4.IsWhole) (arg5 : Memref sig .tc .vmem S256x9 .f32) (harg5 : arg5.IsWhole) (arg6 : Memref sig .tc .vmem S256x9 .f32) (harg6 : arg6.IsWhole) (hc0 : cond0_0 i) (hc1 : ¬cond0_1 i)
    (x0 : Vec F S256x200 .i32) (x1 : Vec F S9x1280 .f32) (x2 : Vec F S1x9 .f32) :
    sout0_A_0 c i arg2 harg2 arg3 harg3 arg4 harg4 arg5 harg5 arg6 harg6 hc0 hc1 x0 x1 x2 = upd i x0 x1 zeros := by
  unfold sout0_A_0
  rw [View.read_writes_eq_canon _ _ _ (scover0_A_0 c i arg2 harg2 arg3 harg3 arg4 harg4 arg5 harg5 arg6 harg6 hc0 hc1 x0 x1 x2)]
  unfold kernelRun0_A
  dsimp only
  sl_unfold_words
  rw [View.canon_cons_unit_zero (S := S256x9) hz, View.readCov_unit_zero (S := S256x9) _ hz]
  unfold upd zeros Bow.chain
  simp only [View.readAt_eq_ld, harg2.read_unread, harg3.read_unread,
    View.ld_unit_zero (S := S256x200) hz, View.ld_unit_zero (S := S9x1280) hz]

/-- The last chunk stores into the output block the softmax payload of the updated scratch and the bias row. -/
theorem out_C (c : Dev nD) (i : grid0.Coords) (arg2 : Memref sig .tc .vmem S256x200 .i32) (harg2 : arg2.IsWhole) (arg3 : Memref sig .tc .vmem S9x1280 .f32) (harg3 : arg3.IsWhole) (arg4 : Memref sig .tc .vmem S1x9 .f32) (harg4 : arg4.IsWhole) (arg5 : Memref sig .tc .vmem S256x9 .f32) (harg5 : arg5.IsWhole) (arg6 : Memref sig .tc .vmem S256x9 .f32) (harg6 : arg6.IsWhole) (hc0 : ¬cond0_0 i) (hc1 : cond0_1 i)
    (x0 : Vec F S256x200 .i32) (x1 : Vec F S9x1280 .f32) (x2 : Vec F S1x9 .f32) (xs0 : Vec F S256x9 .f32) :
    out0_C_3 c i arg2 harg2 arg3 harg3 arg4 harg4 arg5 harg5 arg6 harg6 hc0 hc1 x0 x1 x2 xs0 = k0_pay49 (upd i x0 x1 xs0) x2 := by
  unfold out0_C_3
  rw [View.read_writes_eq_canon _ _ _ (cover0_C_3 c i arg2 harg2 arg3 harg3 arg4 harg4 arg5 harg5 arg6 harg6 hc0 hc1 x0 x1 x2 xs0)]
  unfold kernelRun0_C
  dsimp only
  sl_unfold_words
  rw [View.canon_unit_zero hz]
  unfold upd Bow.chain
  simp only [View.readAt_eq_ld, harg2.read_unread, harg3.read_unread, harg4.read_unread, harg6.read_unread,
    View.ld_unit_zero (S := S256x200) hz, View.ld_unit_zero (S := S9x1280) hz, View.ld_unit_zero (S := S256x9) hz,
    View.ld_unit_zero (S := S1x9) hz, View.readCov_unit_zero (S := S256x9) _ hz]

end Cert.KernelIdeal.Pieces

end
-- ==== Proof.Algebra.lean ====
/-
  Twenty-five chunk sums are one sum over the vocabulary.

  The vocabulary index `v < 32000` is `k · 1280 + q` for a unique chunk `k < 25` and lane `q < 1280`, so a sum
  over `v` is the sum over the chunks of the sums over the lanes.  Addition of extended reals is commutative and
  associative, which is all the regrouping uses.
-/
import Mathlib.Algebra.BigOperators.Fin
import Mathlib.Logic.Equiv.Fin.Basic
import Mathlib.Data.EReal.Basic

noncomputable section

open scoped BigOperators

namespace Cert.Algebra

/-- Lane `q` of chunk `k` as a vocabulary index (taken modulo the vocabulary size, which changes nothing for
    `k < 25`). -/
def vIdx (k q : Nat) : Fin 32000 := ⟨(k * 1280 + q) % 32000, Nat.mod_lt _ (by decide)⟩

theorem vIdx_val (k : Nat) (hk : k < 25) (q : Fin 1280) : (vIdx k q.val).val = k * 1280 + q.val := by
  have := q.isLt
  unfold vIdx
  exact Nat.mod_eq_of_lt (by omega)

/-- A sum over the vocabulary, regrouped by chunk. -/
theorem sum_chunks {M : Type*} [AddCommMonoid M] (f : Fin 32000 → M) :
    ∑ v : Fin 32000, f v = ∑ k ∈ Finset.range 25, ∑ q : Fin 1280, f (vIdx k q.val) := by
  rw [Finset.sum_range fun k => ∑ q : Fin 1280, f (vIdx k q.val)]
  rw [← Fintype.sum_prod_type' (fun (k : Fin 25) (q : Fin 1280) => f (vIdx k.val q.val))]
  rw [← Equiv.sum_comp (finProdFinEquiv (m := 25) (n := 1280)) f]
  refine Finset.sum_congr rfl fun p _ => congrArg f (Fin.ext ?_)
  rw [vIdx_val p.1.val p.1.isLt p.2]
  show p.2.val + 1280 * p.1.val = _
  omega

end Cert.Algebra

end
-- ==== Proof.Blocks.lean ====
/-
  The windows' blocks at a grid point, read against the argument arrays.

  The grid has 8 × 25 points; point `t` works on row block `t / 25` (256 rows) and vocabulary chunk `t % 25`
  (1280 lanes).  The ids block at the point is rows `t / 25 · 256 + r` of the ids matrix, the weights' block is
  columns `t % 25 · 1280 + q` of the weight matrix, and lane `q`'s number is that column number.  So one point adds
  to the scratch, at row `r` and class `c`, the chunk's part of the logit: the sum over the chunk's vocabulary
  indices of count times weight.
-/
import proofs.«410889_j3547642986554_1_alg».proof.Proof.Gen.KernelIdeal.Frame
import proofs.«410889_j3547642986554_1_alg».proof.Proof.Bow
import proofs.«410889_j3547642986554_1_alg».proof.Proof.Pieces
import proofs.«410889_j3547642986554_1_alg».proof.Proof.Algebra
import Idealize.ShloMosaic.Lib.Pipeline.Value
import Idealize.ShloMosaic.Lib.StableHlo.Run

set_option maxRecDepth 16384

noncomputable section

open scoped BigOperators

namespace Cert.KernelIdeal.Blocks

open Cert.KernelIdeal Cert.KernelIdeal.Gen Idealize.ShloMosaic Idealize.ShloMosaic.TcCoe Idealize.ShloMosaic.ValueIdx
open Idealize.SL.Sem Idealize.ShloMosaic.StableHlo Cert.Spec Cert.Algebra

variable (m : (ℓ : Loc nD τ sig) → Buf (Elt Ideal) ℓ)

/-! ## Names of literal type for the arrays and the blocks -/

/-- The ids matrix as the region finds it. -/
abbrev idsArr (c : Dev nD) : S2048x200.Idx → BitVec 32 := V m c main_arg0
/-- The weight matrix as the region finds it. -/
abbrev wArr (c : Dev nD) : S9x32000.Idx → EReal := V m c main_arg1
/-- The bias as a one-row matrix, as the region finds it. -/
abbrev biasArr (c : Dev nD) : S1x9.Idx → EReal := V m c main_v0
/-- The ids block at point `t`. -/
abbrev idsBlk (c : Dev nD) (t : Fin cfg0.N) : Vec Ideal S256x200 .i32 := iblk m c 0 t
/-- The weights' block at point `t`. -/
abbrev wBlk (c : Dev nD) (t : Fin cfg0.N) : Vec Ideal S9x1280 .f32 := iblk m c 1 t
/-- The bias block at point `t`. -/
abbrev biasBlk (c : Dev nD) (t : Fin cfg0.N) : Vec Ideal S1x9 .f32 := iblk m c 2 t

/-- Row `r` of row block `bi` as a row of the ids matrix (modulo the row count, which changes nothing for `bi < 8`). -/
def rowIdx (bi r : Nat) : Fin 2048 := ⟨(bi * 256 + r) % 2048, Nat.mod_lt _ (by decide)⟩

/-! ## The index maps, decided once over the grid -/

theorem idx_facts : ∀ t : Fin cfg0.N,
    win0_0.index t (0 : Fin 2) = t.val / 25 ∧ win0_0.index t (1 : Fin 2) = 0
    ∧ win0_1.index t (0 : Fin 2) = 0 ∧ win0_1.index t (1 : Fin 2) = t.val % 25
    ∧ win0_2.index t (0 : Fin 2) = 0 ∧ win0_2.index t (1 : Fin 2) = 0
    ∧ win0_3.index t (0 : Fin 2) = t.val / 25 ∧ win0_3.index t (1 : Fin 2) = 0
    ∧ (grid0.coords t (1 : Fin 2)).val = t.val % 25 :=
  (by decide +kernel : ∀ t : Fin grid0.N, _)

/-! ## The blocks -/

theorem idsBlk_apply (c : Dev nD) (t : Fin cfg0.N) (r : Fin 256) (l : Fin 200) :
    idsBlk m c t (ix2 r l) = idsArr m c (ix2 (rowIdx (t.val / 25) r.val) l) := by
  obtain ⟨e0, e1, -, -, -, -, -, -, -⟩ := idx_facts t
  have ht : t.val < 200 := lt_of_lt_of_eq t.isLt N_0
  show V m c main_arg0 (((cfg0.win 0).blk t).view.emb (ix2 r l)) = V m c main_arg0 (ix2 (rowIdx (t.val / 25) r.val) l)
  refine congrArg _ (funext fun a => Fin.ext ?_)
  match a with
  | ⟨0, _⟩ =>
    show win0_0.index t (0 : Fin 2) * 256 + 1 * r.val = (t.val / 25 * 256 + r.val) % 2048
    have := r.isLt
    omega
  | ⟨1, _⟩ =>
    show win0_0.index t (1 : Fin 2) * 200 + 1 * l.val = l.val
    omega

theorem wBlk_apply (c : Dev nD) (t : Fin cfg0.N) (cc : Fin 9) (q : Fin 1280) :
    wBlk m c t (ix2 cc q) = wArr m c (ix2 cc (vIdx (t.val % 25) q.val)) := by
  obtain ⟨-, -, e0, e1, -, -, -, -, -⟩ := idx_facts t
  show V m c main_arg1 (((cfg0.win 1).blk t).view.emb (ix2 cc q)) = V m c main_arg1 (ix2 cc (vIdx (t.val % 25) q.val))
  refine congrArg _ (funext fun a => Fin.ext ?_)
  match a with
  | ⟨0, _⟩ =>
    show win0_1.index t (0 : Fin 2) * 9 + 1 * cc.val = cc.val
    omega
  | ⟨1, _⟩ =>
    show win0_1.index t (1 : Fin 2) * 1280 + 1 * q.val = (t.val % 25 * 1280 + q.val) % 32000
    have := q.isLt
    omega

theorem biasBlk_apply (c : Dev nD) (t : Fin cfg0.N) (cc : Fin 9) :
    biasBlk m c t (ix2 0 cc) = biasArr m c (ix2 0 cc) := by
  obtain ⟨-, -, -, -, e0, e1, -, -, -⟩ := idx_facts t
  show V m c main_v0 (((cfg0.win 2).blk t).view.emb (ix2 0 cc)) = V m c main_v0 (ix2 0 cc)
  refine congrArg _ (funext fun a => Fin.ext ?_)
  match a with
  | ⟨0, _⟩ =>
    show win0_2.index t (0 : Fin 2) * 1 + 1 * 0 = 0
    omega
  | ⟨1, _⟩ =>
    show win0_2.index t (1 : Fin 2) * 9 + 1 * cc.val = cc.val
    omega

/-- The one-row bias matrix is the bias vector recast. -/
theorem biasArr_apply (c : Dev nD) (cc : Fin 9) :
    biasArr m c (ix2 0 cc) = (m ((c : Thread nD τ).loc main_arg2) : S9.Idx → EReal) (ix1 cc) := by
  have e : (V m c main_v0 : S1x9.Idx → EReal)
      = shapeCast S1x9 (m ((c : Thread nD τ).loc main_arg2) : S9.Idx → EReal) shapeCasts_S9_S1x9 := by
    dsimp only [Gen.V, Gen.hostOps0]; after_results; rfl
  show (V m c main_v0 : S1x9.Idx → EReal) (ix2 0 cc) = _
  rw [e]
  exact shapeCast_apply _ _ _ _ (by
    show (S9.rowMajor (ix1 cc)).val = (S1x9.rowMajor (ix2 0 cc)).val
    rw [Shape.rowMajor_val_one, Shape.rowMajor_val_two]
    show cc.val = 0 * 9 + cc.val
    omega)

/-! ## The lane numbers -/

/-- Lane `q` at point `t` carries the number of vocabulary index `t % 25 · 1280 + q`. -/
theorem lane_apply (t : Fin cfg0.N) (q : Fin 1280) :
    k0_pay2 (grid0.coords t) (ix2 0 q) = BitVec.ofNat 32 (vIdx (t.val % 25) q.val).val := by
  obtain ⟨-, -, -, -, -, -, -, -, e⟩ := idx_facts t
  have hk : t.val % 25 < 25 := Nat.mod_lt _ (by decide)
  rw [vIdx_val _ hk q]
  unfold k0_pay2
  show IntOp.addi (Scalar.muli (BitVec.ofNat 32 (grid0.coords t 1).val) 1280#32) (iota .tc S1x1280 32 [1] iota_S1x1280_d1_w32 (ix2 0 q)) = _
  rw [iota_single_apply, e]
  show BitVec.ofNat 32 (t.val % 25) * BitVec.ofNat 32 1280 + BitVec.ofNat 32 q.val = _
  rw [BitVec.ofNat_add, BitVec.ofNat_mul]

/-! ## One point's update -/

/-- The count the kernel forms at row `r` and lane `q` is the count of that vocabulary index in that row of the ids matrix. -/
theorem laneCount_eq (c : Dev nD) (t : Fin cfg0.N) (r : Fin 256) (q : Fin 1280) :
    Bow.laneCount (grid0.coords t) (idsBlk m c t) r q
      = Spec.count (idsArr m c) (rowIdx (t.val / 25) r.val) (vIdx (t.val % 25) q.val) := by
  unfold Bow.laneCount Spec.count
  rw [Finset.sum_range]
  refine Finset.sum_congr rfl fun l _ => ?_
  rw [lane_apply]
  unfold Bow.colv
  rw [dif_pos l.isLt]
  exact congrArg (fun z => hit z _) (idsBlk_apply m c t r ⟨l.val, l.isLt⟩)

/-- The part of the logit of class `cc` in row `row` that chunk `k` contributes. -/
def chunkSum (ids : Ids) (W : Wt) (row : Fin 2048) (cc : Fin 9) (k : Nat) : EReal :=
  ∑ q : Fin 1280, Spec.count ids row (vIdx k q.val) * W (ix2 cc (vIdx k q.val))

/-- One point's update of the scratch at `(r, cc)`: what it held plus the point's chunk sum. -/
theorem update_point (c : Dev nD) (t : Fin cfg0.N) (acc : Vec Ideal S256x9 .f32) (r : Fin 256) (cc : Fin 9) :
    Pieces.upd (grid0.coords t) (idsBlk m c t) (wBlk m c t) acc (ix2 r cc)
      = acc (ix2 r cc) + chunkSum (idsArr m c) (wArr m c) (rowIdx (t.val / 25) r.val) cc (t.val % 25) := by
  refine (Bow.update_apply (grid0.coords t) (idsBlk m c t) (wBlk m c t) acc r cc).trans ?_
  refine congrArg (acc (ix2 r cc) + ·) (Finset.sum_congr rfl fun q _ => ?_)
  rw [laneCount_eq, wBlk_apply]

end Cert.KernelIdeal.Blocks

end
-- ==== Proof.Softmax.lean ====
/-
  The kernel's softmax, read at one element.

  At the last chunk of a row block the kernel adds the bias row to the scratch, takes each row's maximum (a fold of
  `max` from −∞, joined with −∞ once more), subtracts it, exponentiates, sums each row and divides.  At row `r`
  and class `c` that is the softmax of the nine numbers `scratch r c' + bias c'`.
-/
import proofs.«410889_j3547642986554_1_alg».proof.Proof.Gen.KernelIdeal.Skeleton
import proofs.«410889_j3547642986554_1_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Softmax

open Cert.KernelIdeal Cert.KernelIdeal.Gen Idealize.ShloMosaic Idealize.ShloMosaic.ValueIdx Cert.Spec

variable [Facts]

/-- The bias row spread down the rows, read at `(r, c)`. -/
theorem bcast_bias {α : Type} (x : S1x9.Idx → α) (h : S1x9.Broadcasts S256x9) (r : Fin 256) (c : Fin 9) :
    broadcastTo S256x9 x h (ix2 r c) = x (ix2 0 c) :=
  broadcastTo_apply x h _ _ (fun a => by
    match a with
    | ⟨0, _⟩ => rfl
    | ⟨1, _⟩ => rfl)

/-- A column vector spread across the nine classes, read at `(r, c)`. -/
theorem bcast_rowstat {α : Type} (x : S256x1.Idx → α) (h : S256x1.Broadcasts S256x9) (r : Fin 256) (c : Fin 9) :
    broadcastTo S256x9 x h (ix2 r c) = x (ix2 r 0) :=
  broadcastTo_apply x h _ _ (fun a => by
    match a with
    | ⟨0, _⟩ => rfl
    | ⟨1, _⟩ => rfl)

/-- A vector of 256 row statistics recast as a column, read at `(r, 0)`. -/
theorem cast_col {α : Type} (x : S256.Idx → α) (h : S256.ShapeCasts S256x1) (r : Fin 256) :
    shapeCast S256x1 x h (ix2 r 0) = x (ix1 r) :=
  shapeCast_apply x h _ _ (by
    rw [Shape.rowMajor_val_one, Shape.rowMajor_val_two]
    show r.val = r.val * 1 + 0
    omega)

/-- The index a reduction over the classes reads for row `r` and class `k`. -/
theorem lift_row (h : S256x9.Reduces [1] S256) (r : Fin 256) (k : Fin 9) : h.lift (ix1 r) k = ix2 r k :=
  funext fun a => Fin.ext (by
    match a with
    | ⟨0, _⟩ => rfl
    | ⟨1, _⟩ => rfl)

/-- An exponential at an element. -/
theorem exp_apply {s : Shape} (x : FVec Ideal s .f32) (i : s.Idx) : Idealize.ShloMosaic.exp x i = Ideal.exp (x i) := rfl

/-- A row's maximum as the kernel takes it: folded from −∞ over the nine classes and joined with −∞ once more. -/
theorem rowmax_apply (lgv : FVec Ideal S256x9 .f32) (h : S256x9.Reduces [1] S256) (hφ : FKind.Formats .f32)
    (hacc : (0xFF800000#32 : BitVec 32) = FKind.maximumf.neutral .f32 hφ) (r : Fin 256) :
    maximumf (broadcast S256 (FloatOps.ofBits (F := Ideal) .f32 0xFF800000#32))
        (multiReduction .maximumf [1] S256 lgv 0xFF800000#32 h hφ hacc) (ix1 r)
      = rowMax (fun c' => lgv (ix2 r c')) := by
  rw [maximumf_apply, broadcast_apply, Ideal.multiReduction_maximumf_single]
  unfold rowMax
  have e : (lgv ∘ h.lift (ix1 r)) = fun c' : Fin 9 => lgv (ix2 r c') := funext fun k => congrArg lgv (lift_row h r k)
  rw [e]
  rfl

/-- A row's sum over the nine classes. -/
theorem rowsum_apply (ev : FVec Ideal S256x9 .f32) (h : S256x9.Reduces [1] S256) (hφ : FKind.Formats .f32)
    (hacc : (0x00000000#32 : BitVec 32) = FKind.add.neutral .f32 hφ) (r : Fin 256) :
    multiReduction .add [1] S256 ev 0x00000000#32 h hφ hacc (ix1 r) = ∑ c' : Fin 9, ev (ix2 r c') := by
  rw [Ideal.multiReduction_add_single]
  exact Finset.sum_congr rfl fun k _ => congrArg ev (lift_row h r k)

/-- The softmax payload at row `r` and class `c`. -/
theorem softmax_apply (acc : Vec Ideal S256x9 .f32) (x2 : Vec Ideal S1x9 .f32) (r : Fin 256) (c : Fin 9) :
    k0_pay49 (F := Ideal) acc x2 (ix2 r c) = softmaxRow (fun c' => acc (ix2 r c') + x2 (ix2 0 c')) c := by
  unfold k0_pay49 softmaxRow
  simp only [divf_apply, exp_apply, subf_apply, addf_apply, bcast_bias, bcast_rowstat, cast_col, shapeCast_self]
  have hlg : (fun c' : Fin 9 => (addf (F := Ideal) (φ := .f32) acc (broadcastTo S256x9 x2 broadcasts_S1x9_S256x9)) (ix2 r c'))
      = fun c' => (acc (ix2 r c') + x2 (ix2 0 c') : EReal) := funext fun c' => by rw [addf_apply, bcast_bias]
  have hm := rowmax_apply (addf (F := Ideal) (φ := .f32) acc (broadcastTo S256x9 x2 broadcasts_S1x9_S256x9)) reduces_S256x9_S256 (.inl rfl) rfl r
  rw [hlg] at hm
  refine congrArg₂ Ideal.div (congrArg (fun z => Ideal.exp (acc (ix2 r c) + x2 (ix2 0 c) - z)) hm) ?_
  refine (rowsum_apply _ reduces_S256x9_S256 (.inl rfl) rfl r).trans ?_
  refine Finset.sum_congr rfl fun c' _ => ?_
  simp only [exp_apply, subf_apply, addf_apply, bcast_bias, bcast_rowstat, cast_col]
  exact congrArg (fun z => Ideal.exp (acc (ix2 r c') + x2 (ix2 0 c') - z)) hm

end Cert.KernelIdeal.Softmax

end
-- ==== Proof.KValue.lean ====
/-
  The kernel's result array.

  Within a row block the scratch after chunk `k` holds, at row `r` and class `c`, the sum of the chunk sums of
  chunks `0 … k`: the first chunk stores its own chunk sum over zeros, each later chunk adds its own.  After the last
  chunk that is the whole sum over the vocabulary, the logit without its bias.  The last chunk then stores the softmax
  of scratch plus bias into the output block, which is rows `t / 25 · 256 + r` of the result; the eight last-chunk
  points' blocks tile the result array.
-/
import proofs.«410889_j3547642986554_1_alg».proof.Proof.Gen.KernelIdeal.Value
import proofs.«410889_j3547642986554_1_alg».proof.Proof.Blocks
import proofs.«410889_j3547642986554_1_alg».proof.Proof.Pieces
import proofs.«410889_j3547642986554_1_alg».proof.Proof.Softmax
import proofs.«410889_j3547642986554_1_alg».proof.Proof.Algebra
import proofs.«410889_j3547642986554_1_alg».proof.Proof.Spec
import Idealize.ShloMosaic.Lib.Pipeline.Value
import Idealize.ShloMosaic.Lib.IdealHost

set_option maxRecDepth 16384

noncomputable section

open scoped BigOperators

namespace Cert.KernelIdeal.KValue

open Cert.KernelIdeal Cert.KernelIdeal.Gen Cert.KernelIdeal.Blocks Idealize.ShloMosaic Idealize.ShloMosaic.TcCoe
open Idealize.ShloMosaic.ValueIdx Idealize.SL.Sem Cert.Spec Cert.Algebra
open Idealize.ShloMosaic.Pipeline (Dat)

variable (m : (ℓ : Loc nD τ sig) → Buf (Elt Ideal) ℓ) (ρ : Dev nD → PrngReg)

/-! ## The scratch, point by point -/

/-- The zero block reads zero everywhere. -/
theorem zeros_apply (r : Fin 256) (cc : Fin 9) : (Pieces.zeros (F := Ideal)) (ix2 r cc) = 0 := by
  unfold Pieces.zeros k0_pay1
  rw [shapeCast_self]
  exact Ideal.ofBits_zero_f32

/-- At a first chunk the scratch ends at that chunk's sum. -/
theorem scratch_first (c : Dev nD) (t : Fin cfg0.N) (h0 : t.val % 25 = 0) (r : Fin 256) (cc : Fin 9) :
    (outsAt0 m c t.val t.isLt).2 (ix2 r cc)
      = chunkSum (idsArr m c) (wArr m c) (rowIdx (t.val / 25) r.val) cc (t.val % 25) := by
  have h1 : ¬t.val % 25 = 24 := by omega
  rw [outsAt0_A m c t h0 h1]
  dsimp only
  rw [Pieces.scratch_A (F := Ideal) c (grid0.coords t) (ms0_0 t) (hs0_0 t) (ms0_1 t) (hs0_1 t) (ms0_2 t) (hs0_2 t) (ms0_3 t) (hs0_3 t) scM0_0 (Memref.isWhole_whole _) ((hcond0_0 t).mpr h0) (fun h => h1 ((hcond0_1 t).mp h)) (iblk m c 0 t) (iblk m c 1 t) (iblk m c 2 t)]
  refine (update_point m c t Pieces.zeros r cc).trans ?_
  rw [zeros_apply, zero_add]

/-- At a later chunk the scratch ends at what the point before left plus that chunk's sum. -/
theorem scratch_later (c : Dev nD) (t : Fin cfg0.N) (h0 : ¬t.val % 25 = 0) (r : Fin 256) (cc : Fin 9) :
    (outsAt0 m c t.val t.isLt).2 (ix2 r cc)
      = (outsAt0 m c (t.val - 1) (Nat.lt_of_le_of_lt (Nat.sub_le _ _) t.isLt)).2 (ix2 r cc)
        + chunkSum (idsArr m c) (wArr m c) (rowIdx (t.val / 25) r.val) cc (t.val % 25) := by
  by_cases h1 : t.val % 25 = 24
  · rw [outsAt0_C m c t h0 h1]
    dsimp only
    rw [Pieces.scratch_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
    exact update_point m c t _ r cc
  · rw [outsAt0_B m c t h0 h1]
    dsimp only
    rw [Pieces.scratch_B (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (fun h => h1 ((hcond0_1 t).mp h)) (iblk m c 0 t) (iblk m c 1 t) (iblk m c 2 t) (outsAt0 m c (t.val - 1) (Nat.lt_of_le_of_lt (Nat.sub_le _ _) t.isLt)).2]
    exact update_point m c t _ r cc

/-- After point `n` the scratch holds the sum of the chunk sums of the row block's chunks up to `n`'s. -/
theorem scratch_inv (c : Dev nD) : ∀ (n : ℕ) (hn : n < cfg0.N) (r : Fin 256) (cc : Fin 9),
    (outsAt0 m c n hn).2 (ix2 r cc)
      = ∑ k ∈ Finset.range (n % 25 + 1), chunkSum (idsArr m c) (wArr m c) (rowIdx (n / 25) r.val) cc k := by
  intro n
  induction n with
  | zero =>
    intro hn r cc
    refine (scratch_first m c ⟨0, hn⟩ rfl r cc).trans ?_
    show chunkSum _ _ (rowIdx (0 / 25) r.val) cc (0 % 25) = ∑ k ∈ Finset.range (0 % 25 + 1), _
    simp
  | succ n ih =>
    intro hn r cc
    have hN : n + 1 < 200 := lt_of_lt_of_eq hn (show cfg0.N = 200 from N_0)
    by_cases h0 : (n + 1) % 25 = 0
    · refine (scratch_first m c ⟨n + 1, hn⟩ h0 r cc).trans ?_
      show chunkSum _ _ (rowIdx ((n + 1) / 25) r.val) cc ((n + 1) % 25) = ∑ k ∈ Finset.range ((n + 1) % 25 + 1), _
      rw [h0]
      simp
    · refine (scratch_later m c ⟨n + 1, hn⟩ h0 r cc).trans ?_
      show (outsAt0 m c n _).2 (ix2 r cc) + chunkSum _ _ (rowIdx ((n + 1) / 25) r.val) cc ((n + 1) % 25) = _
      rw [ih (Nat.lt_of_succ_lt hn) r cc]
      have e1 : (n + 1) / 25 = n / 25 := by omega
      have e2 : (n + 1) % 25 = n % 25 + 1 := by omega
      rw [e1, e2, Finset.sum_range_succ _ (n % 25 + 1)]

/-! ## The arrays as launched -/

theorem idsArr_eq (c : Dev nD) : idsArr m c = m ((c : Thread nD τ).loc main_arg0) := V_main_arg0 m c
theorem wArr_eq (c : Dev nD) : wArr m c = m ((c : Thread nD τ).loc main_arg1) := V_main_arg1 m c

/-- The result the kernel is shown to leave: the specification at the launched arguments. -/
abbrev result (c : Dev nD) : S2048x9.Idx → EReal :=
  G (idsArr m c) (wArr m c) (m ((c : Thread nD τ).loc main_arg2) : S9.Idx → EReal)

/-! ## What a last chunk writes back -/

set_option maxRecDepth 65536 in
/-- A last-chunk point writes back block `t` of the specification: at row `r` and class `cc` of the block, the
    softmax of the logits of row `t / 25 · 256 + r`. -/
theorem flushed_eq (c : Dev nD) (t : Fin cfg0.N) (hf : (cfg0.win 3).flush t = true) :
    (dats m 0 c).flushed 3 t = ((cfg0.win 3).blk t).view.read (Elt Ideal) (result m c) := by
  have h1 : t.val % 25 = 24 := (flush0_3 t).mp hf
  have h0 : ¬t.val % 25 = 0 := by omega
  have ht : t.val < 200 := lt_of_lt_of_eq t.isLt N_0
  obtain ⟨-, -, -, -, -, -, e6, e7, -⟩ := idx_facts t
  rw [Value.flushed3_C m c t h0 h1]
  rw [Pieces.out_C (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h1) (iblk m c 0 t) (iblk m c 1 t) (iblk m c 2 t) (outsAt0 m c (t.val - 1) (Nat.lt_of_le_of_lt (Nat.sub_le _ _) t.isLt)).2]
  funext j
  obtain ⟨r, cc, rfl⟩ : ∃ (r : Fin 256) (cc : Fin 9), j = ix2 r cc := ⟨j 0, j 1, eq_ix2 j⟩
  rw [View.read_apply]
  show k0_pay49 (Pieces.upd (grid0.coords t) (idsBlk m c t) (wBlk m c t) (outsAt0 m c (t.val - 1) (Nat.lt_of_le_of_lt (Nat.sub_le _ _) t.isLt)).2) (biasBlk m c t) (ix2 r cc)
    = result m c (((cfg0.win 3).blk t).view.emb (ix2 r cc))
  have hemb : ((cfg0.win 3).blk t).view.emb (ix2 r cc) = ix2 (rowIdx (t.val / 25) r.val) cc := by
    funext a; apply Fin.ext
    match a with
    | ⟨0, _⟩ =>
      show win0_3.index t (0 : Fin 2) * 256 + 1 * r.val = (t.val / 25 * 256 + r.val) % 2048
      have := r.isLt
      omega
    | ⟨1, _⟩ =>
      show win0_3.index t (1 : Fin 2) * 9 + 1 * cc.val = cc.val
      omega
  rw [hemb]
  refine (Softmax.softmax_apply _ (biasBlk m c t) r cc).trans ?_
  show _ = softmaxRow (fun c' => logit (idsArr m c) (wArr m c) _ (rowIdx (t.val / 25) r.val) c') cc
  refine congrArg (fun lg => softmaxRow lg cc) (funext fun c' => ?_)
  rw [update_point m c t _ r c', scratch_inv m c (t.val - 1) _ r c', biasBlk_apply, biasArr_apply]
  unfold logit
  refine congrArg (· + _) ?_
  have e1 : (t.val - 1) / 25 = t.val / 25 := by omega
  have e2 : (t.val - 1) % 25 + 1 = 24 := by omega
  rw [e1, e2, h1, ← Finset.sum_range_succ (fun k => chunkSum (idsArr m c) (wArr m c) (rowIdx (t.val / 25) r.val) c' k) 24]
  rw [sum_chunks fun v => Spec.count (idsArr m c) (rowIdx (t.val / 25) r.val) v * wArr m c (ix2 c' v)]
  rfl

/-! ## The blocks tile the result -/

/-- An index of the result is in point `t`'s block iff each coordinate is in the block's range on its axis. -/
theorem mem_blk (t : Fin cfg0.N) (i : S2048x9.Idx) :
    i ∈ ((cfg0.win 3).blk t).view.set ↔ ∀ a : Fin 2, win0_3.index t a * S256x9.size a ≤ (i a).val ∧ (i a).val < win0_3.index t a * S256x9.size a + S256x9.size a := by
  show i ∈ ((View.whole main_v1).slice (win0_3.rect t)).set ↔ _
  rw [View.set_slice_whole, Rect.mem_set_unit]
  exact Iff.rfl

/-- Every index of the result is in the block of the last chunk of its row block. -/
theorem cover (i : S2048x9.Idx) :
    ∃ t : Fin cfg0.N, (cfg0.win 3).flush t = true ∧ i ∈ ((cfg0.win 3).blk t).view.set := by
  have hi0 : (i 0).val < 2048 := (i 0).isLt
  have hi1 : (i 1).val < 9 := (i 1).isLt
  have hlt : (i 0).val / 256 * 25 + 24 < cfg0.N :=
    lt_of_lt_of_eq (by omega : (i 0).val / 256 * 25 + 24 < 200) (show cfg0.N = 200 from N_0).symm
  refine ⟨⟨(i 0).val / 256 * 25 + 24, hlt⟩, (flush0_3 _).mpr (by show ((i 0).val / 256 * 25 + 24) % 25 = 24; omega), ?_⟩
  obtain ⟨-, -, -, -, -, -, e6, e7, -⟩ := idx_facts ⟨(i 0).val / 256 * 25 + 24, hlt⟩
  have e6' : win0_3.index ⟨(i 0).val / 256 * 25 + 24, hlt⟩ (0 : Fin 2) = ((i 0).val / 256 * 25 + 24) / 25 := e6
  rw [mem_blk]
  intro a
  match a with
  | ⟨0, _⟩ =>
    show win0_3.index ⟨(i 0).val / 256 * 25 + 24, hlt⟩ (0 : Fin 2) * 256 ≤ (i 0).val ∧ (i 0).val < win0_3.index ⟨(i 0).val / 256 * 25 + 24, hlt⟩ (0 : Fin 2) * 256 + 256
    omega
  | ⟨1, _⟩ =>
    show win0_3.index ⟨(i 0).val / 256 * 25 + 24, hlt⟩ (1 : Fin 2) * 9 ≤ (i 1).val ∧ (i 1).val < win0_3.index ⟨(i 0).val / 256 * 25 + 24, hlt⟩ (1 : Fin 2) * 9 + 9
    omega

/-! ## The result array and the run -/

/-- After the run the result array is the specification at the launched arguments. -/
theorem final (c : Dev nD) : (dats m 0 c).arrAt 3 cfg0.N = result m c :=
  (dats m 0 c).arrAt_eq_of_cover 3 (result m c) (fun t hf => flushed_eq m c t hf) cover

/-- The kernel's run: it terminates without fault, the result array holds the specification at the launched arguments,
    and the arguments are unchanged. -/
theorem run : θ_run defs (onTc (τ := τ) (main (F := Ideal))) ⟨m, fun _ => 0, ρ⟩ fun r => ∀ c : Dev nD,
      r.2.mem ((c : Thread nD τ).loc main_v1)
        = G (m ((c : Thread nD τ).loc main_arg0)) (m ((c : Thread nD τ).loc main_arg1)) (m ((c : Thread nD τ).loc main_arg2) : S9.Idx → EReal)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((final m c).trans (by
      show G (idsArr m c) (wArr m c) _ = _
      rw [idsArr_eq, wArr_eq])), (h c).2⟩)
    (Value.run_blocks m ρ)

end Cert.KernelIdeal.KValue

end
-- ==== Proof.PointScatter.lean ====
/-
  A scatter of single elements into a matrix, read at one element.

  The updates form a matrix; update `(e, l)` carries a two-component index vector, one component per axis of the
  operand, and no window.  It lands on the operand element `(n, v)` exactly when the two components, read as signed
  integers, are `n` and `v`; an update whose components name no element of the operand is dropped.
-/
import Idealize.ShloMosaic.PureOps.Ideal
import Idealize.ShloMosaic.Lib.ValueIdx

noncomputable section

open scoped BigOperators
open Idealize.ShloMosaic Idealize.ShloMosaic.ValueIdx

namespace Cert.PointScatter

variable {N V E L w : Nat}

/-- No axis of the operand is a window axis: the window coordinate is zero everywhere. -/
theorem window_eq_zero (d : ScatterDims ⟨2, ![N, V]⟩ ⟨3, ![E, L, 2]⟩ ⟨2, ![E, L]⟩)
    (hiw : d.insertedWindowDims = [0, 1]) (j : (⟨2, ![E, L]⟩ : Shape).Idx) (a : Fin 2) :
    d.window j a = 0 := by
  unfold ScatterDims.window
  rw [dif_neg]
  intro ha
  have hk : d.sKept = [] := by
    show Shape.kept _ d.insertedWindowDims = []
    rw [hiw]; rfl
  rw [hk] at ha
  exact absurd ha (List.not_mem_nil)

/-- The start on the operand's first axis is the index vector's first component, read signed. -/
theorem start_zero (d : ScatterDims ⟨2, ![N, V]⟩ ⟨3, ![E, L, 2]⟩ ⟨2, ![E, L]⟩)
    (huw : d.updateWindowDims = []) (hsd : d.scatterDimsToOperandDims = [0, 1]) (hiv : d.indexVectorDim = 2)
    (idx : IVec ⟨3, ![E, L, 2]⟩ w) (e : Fin E) (l : Fin L) :
    d.start (ix2 e l) idx 0 = (idx (ix3 e l 0)).toInt := by
  obtain ⟨uw, iw, sd, iv, wf⟩ := d
  dsimp only at huw hsd hiv
  subst huw hsd hiv
  unfold ScatterDims.start
  rw [dif_pos (show (0 : Fin 2) ∈ ([0, 1] : List (Fin 2)) by decide)]
  congr 2
  funext b; refine Fin.ext ?_
  match b with
  | ⟨0, _⟩ => rfl
  | ⟨1, _⟩ => rfl
  | ⟨2, _⟩ => rfl

/-- The start on the operand's second axis is the index vector's second component, read signed. -/
theorem start_one (d : ScatterDims ⟨2, ![N, V]⟩ ⟨3, ![E, L, 2]⟩ ⟨2, ![E, L]⟩)
    (huw : d.updateWindowDims = []) (hsd : d.scatterDimsToOperandDims = [0, 1]) (hiv : d.indexVectorDim = 2)
    (idx : IVec ⟨3, ![E, L, 2]⟩ w) (e : Fin E) (l : Fin L) :
    d.start (ix2 e l) idx 1 = (idx (ix3 e l 1)).toInt := by
  obtain ⟨uw, iw, sd, iv, wf⟩ := d
  dsimp only at huw hsd hiv
  subst huw hsd hiv
  unfold ScatterDims.start
  rw [dif_pos (show (1 : Fin 2) ∈ ([0, 1] : List (Fin 2)) by decide)]
  congr 2
  funext b; refine Fin.ext ?_
  match b with
  | ⟨0, _⟩ => rfl
  | ⟨1, _⟩ => rfl
  | ⟨2, _⟩ => rfl

/-- WHERE AN UPDATE LANDS: update `(e, l)` lands on the operand element `(n, v)` exactly when the two components of
    its index vector, read as signed integers, are `n` and `v`. -/
theorem resultIdx?_eq_some_iff (d : ScatterDims ⟨2, ![N, V]⟩ ⟨3, ![E, L, 2]⟩ ⟨2, ![E, L]⟩)
    (huw : d.updateWindowDims = []) (hiw : d.insertedWindowDims = [0, 1])
    (hsd : d.scatterDimsToOperandDims = [0, 1]) (hiv : d.indexVectorDim = 2)
    (idx : IVec ⟨3, ![E, L, 2]⟩ w) (e : Fin E) (l : Fin L) (n : Fin N) (v : Fin V) :
    d.resultIdx? (ix2 e l) idx = some (ix2 n v) ↔
      (idx (ix3 e l 0)).toInt = (n.val : Int) ∧ (idx (ix3 e l 1)).toInt = (v.val : Int) := by
  have h0 := start_zero d huw hsd hiv idx e l
  have h1 := start_one d huw hsd hiv idx e l
  have w0 := window_eq_zero d hiw (ix2 e l) 0
  have w1 := window_eq_zero d hiw (ix2 e l) 1
  have hn := n.isLt
  have hv := v.isLt
  unfold ScatterDims.resultIdx?
  constructor
  · intro h
    split at h
    · rename_i hh
      have hf := Option.some.inj h
      have e0 : (d.start (ix2 e l) idx 0 + (d.window (ix2 e l) 0 : Int)).toNat = n.val :=
        congrArg (fun f => (f 0).val) hf
      have e1 : (d.start (ix2 e l) idx 1 + (d.window (ix2 e l) 1 : Int)).toNat = v.val :=
        congrArg (fun f => (f 1).val) hf
      have b0 := (hh 0).1
      have b1 := (hh 1).1
      rw [h0, w0] at e0 b0
      rw [h1, w1] at e1 b1
      constructor <;> omega
    · exact absurd h (by simp)
  · rintro ⟨hn', hv'⟩
    have hh : ∀ a : Fin 2, 0 ≤ d.start (ix2 e l) idx a + (d.window (ix2 e l) a : Int) ∧
        d.start (ix2 e l) idx a + (d.window (ix2 e l) a : Int) < ((⟨2, ![N, V]⟩ : Shape).size a : Int) := by
      intro a
      match a with
      | ⟨0, _⟩ =>
        show 0 ≤ d.start (ix2 e l) idx 0 + (d.window (ix2 e l) 0 : Int) ∧
          d.start (ix2 e l) idx 0 + (d.window (ix2 e l) 0 : Int) < (N : Int)
        rw [h0, w0]; constructor <;> omega
      | ⟨1, _⟩ =>
        show 0 ≤ d.start (ix2 e l) idx 1 + (d.window (ix2 e l) 1 : Int) ∧
          d.start (ix2 e l) idx 1 + (d.window (ix2 e l) 1 : Int) < (V : Int)
        rw [h1, w1]; constructor <;> omega
    rw [dif_pos hh]
    congr 1
    funext a; refine Fin.ext ?_
    match a with
    | ⟨0, _⟩ =>
      show (d.start (ix2 e l) idx 0 + (d.window (ix2 e l) 0 : Int)).toNat = n.val
      rw [h0, w0]; omega
    | ⟨1, _⟩ =>
      show (d.start (ix2 e l) idx 1 + (d.window (ix2 e l) 1 : Int)).toNat = v.val
      rw [h1, w1]; omega

/-- THE SCATTER-ADD READ AT `(n, v)`: the operand's element plus the sum of the updates whose index vector names
    `(n, v)`. -/
theorem hostScatterAdd_apply (d : ScatterDims ⟨2, ![N, V]⟩ ⟨3, ![E, L, 2]⟩ ⟨2, ![E, L]⟩)
    (huw : d.updateWindowDims = []) (hiw : d.insertedWindowDims = [0, 1])
    (hsd : d.scatterDimsToOperandDims = [0, 1]) (hiv : d.indexVectorDim = 2)
    (x : (⟨2, ![N, V]⟩ : Shape).Idx → EReal) (idx : IVec ⟨3, ![E, L, 2]⟩ w)
    (upd : (⟨2, ![E, L]⟩ : Shape).Idx → EReal) (n : Fin N) (v : Fin V) :
    Ideal.hostScatterAdd d x idx upd (ix2 n v) =
      x (ix2 n v) + ∑ e : Fin E, ∑ l : Fin L,
        if (idx (ix3 e l 0)).toInt = (n.val : Int) ∧ (idx (ix3 e l 1)).toInt = (v.val : Int) then upd (ix2 e l)
        else 0 := by
  unfold Ideal.hostScatterAdd
  rw [Finset.sum_filter, sum_idx2]
  refine congrArg (_ + ·) (Finset.sum_congr rfl fun e _ => Finset.sum_congr rfl fun l _ => ?_)
  exact if_congr (resultIdx?_eq_some_iff d huw hiw hsd hiv idx e l n v) rfl rfl

/-- The same read of the host's accumulating scatter at the ideal instance. -/
theorem scatterAdd_apply {φ : FTy} (d : ScatterDims ⟨2, ![N, V]⟩ ⟨3, ![E, L, 2]⟩ ⟨2, ![E, L]⟩)
    (huw : d.updateWindowDims = []) (hiw : d.insertedWindowDims = [0, 1])
    (hsd : d.scatterDimsToOperandDims = [0, 1]) (hiv : d.indexVectorDim = 2)
    (x : FVec Ideal ⟨2, ![N, V]⟩ φ) (idx : IVec ⟨3, ![E, L, 2]⟩ w)
    (upd : FVec Ideal ⟨2, ![E, L]⟩ φ) (n : Fin N) (v : Fin V) :
    Host.scatterAdd d x idx upd (ix2 n v) =
      x (ix2 n v) + ∑ e : Fin E, ∑ l : Fin L,
        if (idx (ix3 e l 0)).toInt = (n.val : Int) ∧ (idx (ix3 e l 1)).toInt = (v.val : Int) then upd (ix2 e l)
        else 0 :=
  hostScatterAdd_apply d huw hiw hsd hiv x idx upd n v

end Cert.PointScatter

end
-- ==== Proof.RefValue.lean ====
/-
  The reference program's result is the specification function.

  The program builds a bag-of-words matrix by scattering a one for every word id into a zero matrix, multiplies it
  by the transposed weights, adds the bias, and takes a softmax along each row.  Read one operation at a time: a
  row number and a non-negative id are left unchanged by the wrap-around of negative indices; the pair (row, id) is
  the index vector of an update; the update lands on column `v` of its own row exactly when the id is the word of
  `v`; so the matrix element is the count of that word in the row, the product with the weights plus the bias is the
  logit, and the remaining operations are the softmax of the nine logits of the row.
-/
import proofs.«410889_j3547642986554_1_alg».proof.Proof.Gen.ReferenceIdeal.Read
import proofs.«410889_j3547642986554_1_alg».proof.Proof.Spec
import proofs.«410889_j3547642986554_1_alg».proof.Proof.PointScatter
import Idealize.ShloMosaic.PureOps.Reduce
import Idealize.ShloMosaic.PureOps.Ideal.Laws
import Idealize.ShloMosaic.Lib.Pipeline.Value
import Idealize.ShloMosaic.Lib.ValueIdx
import Idealize.ShloMosaic.Lib.IdealHost
import Idealize.ShloMosaic.Lib.StableHlo.Predicate

noncomputable section

open scoped BigOperators
open Cert.ReferenceIdeal Cert.ReferenceIdeal.Gen Cert.ReferenceIdeal.Read Idealize.ShloMosaic Idealize.ShloMosaic.ValueIdx
open Idealize.ShloMosaic.StableHlo.Predicate (toInt_ofNat_small)

namespace Cert.RefValue

variable [Cert.ReferenceIdeal.Facts]

/-! ## Words -/

/-- A word that is non-negative as a signed integer is not below zero. -/
theorem slt_zero_of_nonneg (a : BitVec 32) (h : 0 ≤ a.toInt) : IntOp.cmpi .slt a 0#32 = 0#1 := by
  unfold IntOp.cmpi
  have hs : a.slt 0#32 = false := by
    simp only [BitVec.slt, BitVec.toInt_zero]
    exact decide_eq_false (by omega)
  rw [hs]; rfl

/-! ## The row numbers and the ids survive the wrap-around of negative indices -/

/-- The column of row numbers. -/
theorem v2_apply (r : Fin 2048) : val_main_v2 (F := Ideal) (ix2 r 0) = BitVec.ofNat 32 r.val := by
  rw [val_main_v2_apply, val_main_v1_apply]

/-- A row number is not negative: the wrap-around leaves it. -/
theorem v7_apply (r : Fin 2048) : val_main_v7 (F := Ideal) (ix2 r 0) = BitVec.ofNat 32 r.val := by
  rw [val_main_v7_apply, val_main_v4_apply, v2_apply, val_main_v3_apply, val_main_c_apply,
    slt_zero_of_nonneg _ (by rw [toInt_ofNat_small _ (by omega)]; omega), select_zero]

/-- An id that is not negative is left by the wrap-around. -/
theorem v12_apply (ids : (⟨S2048x200, .i32⟩ : BufTy).Contents (Elt Ideal)) (hpos : ∀ j, 0 ≤ (ids j).toInt)
    (r : Fin 2048) (l : Fin 200) : val_main_v12 (F := Ideal) ids (ix2 r l) = ids (ix2 r l) := by
  rw [val_main_v12_apply, val_main_v9_apply, val_main_v8_apply, val_main_c_1_apply,
    slt_zero_of_nonneg _ (hpos _), select_zero]

/-! ## The index pair of update `(r, l)` -/

/-- Its row component is the row number. -/
theorem v14_apply (r : Fin 2048) (l : Fin 200) :
    val_main_v14 (F := Ideal) (ix3 r l 0) = BitVec.ofNat 32 r.val := by
  rw [val_main_v14_apply, val_main_v13_apply,
    show idx_main_v13 (idx_main_v14 (ix3 r l (0 : Fin 1))) = ix2 r (0 : Fin 1) from
      funext fun a => match a with | ⟨0, _⟩ => rfl | ⟨1, _⟩ => rfl,
    v7_apply]

/-- Its column component is the id. -/
theorem v15_apply (ids : (⟨S2048x200, .i32⟩ : BufTy).Contents (Elt Ideal)) (hpos : ∀ j, 0 ≤ (ids j).toInt)
    (r : Fin 2048) (l : Fin 200) : val_main_v15 (F := Ideal) ids (ix3 r l 0) = ids (ix2 r l) := by
  rw [val_main_v15_apply,
    show idx_main_v15 (ix3 r l (0 : Fin 1)) = ix2 r l from
      funext fun a => match a with | ⟨0, _⟩ => rfl | ⟨1, _⟩ => rfl,
    v12_apply ids hpos]

/-- The first component of the joined pair is the row number. -/
theorem v16_apply_zero (ids : (⟨S2048x200, .i32⟩ : BufTy).Contents (Elt Ideal)) (r : Fin 2048) (l : Fin 200) :
    val_main_v16 (F := Ideal) ids (ix3 r l 0) = BitVec.ofNat 32 r.val := by
  rw [← v14_apply r l]
  unfold val_main_v16
  exact concatenate_apply_piece (t := S2048x200x2) 2 [⟨S2048x200x1, val_main_v14 (F := Ideal)⟩, ⟨S2048x200x1, val_main_v15 (F := Ideal) ids⟩]
    concatenates_S2048x200x1_S2048x200x1_S2048x200x2_d2 (ix3 r l (0 : Fin 2)) 0 Nat.zero_lt_two S2048x200x1
    (val_main_v14 (F := Ideal)) rfl rfl 0 rfl (ix3 r l (0 : Fin 1))
    (fun b hb => match b with
      | ⟨0, _⟩ => rfl
      | ⟨1, _⟩ => rfl
      | ⟨2, _⟩ => absurd rfl hb)
    rfl

/-- The second component of the joined pair is the id. -/
theorem v16_apply_one (ids : (⟨S2048x200, .i32⟩ : BufTy).Contents (Elt Ideal)) (hpos : ∀ j, 0 ≤ (ids j).toInt)
    (r : Fin 2048) (l : Fin 200) : val_main_v16 (F := Ideal) ids (ix3 r l 1) = ids (ix2 r l) := by
  rw [← v15_apply ids hpos r l]
  unfold val_main_v16
  exact concatenate_apply_piece (t := S2048x200x2) 2 [⟨S2048x200x1, val_main_v14 (F := Ideal)⟩, ⟨S2048x200x1, val_main_v15 (F := Ideal) ids⟩]
    concatenates_S2048x200x1_S2048x200x1_S2048x200x2_d2 (ix3 r l (1 : Fin 2)) 1 Nat.one_lt_two S2048x200x1
    (val_main_v15 (F := Ideal) ids) rfl rfl 1 rfl (ix3 r l (0 : Fin 1))
    (fun b hb => match b with
      | ⟨0, _⟩ => rfl
      | ⟨1, _⟩ => rfl
      | ⟨2, _⟩ => absurd rfl hb)
    rfl

/-! ## The scattered matrix is the matrix of counts -/

/-- A word whose signed reading is a column number below 2³¹ is the word of that number. -/
theorem toInt_eq_iff (a : BitVec 32) (v : Nat) (hv : v < 2 ^ 31) :
    a.toInt = (v : Int) ↔ a = BitVec.ofNat 32 v := by
  constructor
  · intro h
    exact BitVec.eq_of_toInt_eq (by rw [h, toInt_ofNat_small v hv])
  · intro h
    rw [h, toInt_ofNat_small v hv]

/-- Element `(n, v)` of the scattered matrix: how often the word of `v` occurs in row `n`. -/
theorem v18_apply (ids : (⟨S2048x200, .i32⟩ : BufTy).Contents (Elt Ideal)) (hpos : ∀ j, 0 ≤ (ids j).toInt)
    (n : Fin 2048) (v : Fin 32000) : val_main_v18 (F := Ideal) ids (ix2 n v) = Cert.Spec.count ids n v := by
  unfold val_main_v18
  rw [Cert.PointScatter.scatterAdd_apply _ rfl rfl rfl rfl, val_main_v0_apply, val_main_cst_apply,
    Ideal.ofBits_def, Ideal.ofBits_zero_f32, zero_add]
  unfold Cert.Spec.count
  rw [Finset.sum_eq_single n]
  · refine Finset.sum_congr rfl fun l _ => ?_
    rw [v16_apply_zero, v16_apply_one ids hpos, val_main_v17_apply, val_main_cst_3_apply, Ideal.ofBits_def,
      Ideal.ofBits_one_f32]
    unfold Cert.Spec.hit
    refine if_congr ?_ rfl rfl
    rw [toInt_eq_iff _ v.val (by have := v.isLt; omega)]
    exact and_iff_right (toInt_ofNat_small _ (by have := n.isLt; omega))
  · intro e _ hen
    refine Finset.sum_eq_zero fun l _ => ?_
    rw [v16_apply_zero, if_neg]
    rintro ⟨h, -⟩
    rw [toInt_ofNat_small _ (by have := e.isLt; omega)] at h
    exact hen (Fin.ext (by exact_mod_cast h))
  · intro h; exact absurd (Finset.mem_univ n) h

/-! ## The logits -/

/-- Element `(r, c)` before the softmax is the logit of class `c` in row `r`. -/
theorem v23_apply (ids : (⟨S2048x200, .i32⟩ : BufTy).Contents (Elt Ideal)) (hpos : ∀ j, 0 ≤ (ids j).toInt)
    (W : (⟨S9x32000, .f32⟩ : BufTy).Contents (Elt Ideal)) (b : (⟨S9, .f32⟩ : BufTy).Contents (Elt Ideal))
    (r : Fin 2048) (c : Fin 9) :
    val_main_v23 (F := Ideal) ids W b (ix2 r c) = Cert.Spec.logit ids W b r c := by
  rw [val_main_v23_apply, val_main_v20_apply, val_main_v22_apply, val_main_v21_apply, Ideal.addf_def]
  unfold Cert.Spec.logit
  refine congrArg₂ (· + ·) (Finset.sum_congr rfl fun k _ => ?_)
    (congrArg b (funext fun a => match a with | ⟨0, _⟩ => rfl))
  rw [show lidx_main_v20 (ix2 r c) k = ix2 r k from
      funext fun a => match a with | ⟨0, _⟩ => rfl | ⟨1, _⟩ => rfl,
    v18_apply ids hpos, val_main_v19_apply,
    show idx_main_v19 (ridx_main_v20 (ix2 r c) k) = ix2 c k from
      funext fun a => match a with | ⟨0, _⟩ => rfl | ⟨1, _⟩ => rfl]

/-! ## The softmax of a row -/

/-- The fold of the maximum over the nine logits of row `r`, from −∞. -/
theorem v24_apply (ids : (⟨S2048x200, .i32⟩ : BufTy).Contents (Elt Ideal)) (hpos : ∀ j, 0 ≤ (ids j).toInt)
    (W : (⟨S9x32000, .f32⟩ : BufTy).Contents (Elt Ideal)) (b : (⟨S9, .f32⟩ : BufTy).Contents (Elt Ideal))
    (r : Fin 2048) :
    val_main_v24 (F := Ideal) ids W b (ix1 r) =
      (Finset.univ : Finset (Fin 9)).fold max (Ideal.ofBits .f32 0xFF800000#32)
        (fun c => Cert.Spec.logit ids W b r c) := by
  unfold val_main_v24
  have h : S2048x9.Reduces [1] S2048 := by decide
  rw [Host.reduce_eq_fold_single FloatOps.maximumf _ _ reducesTo_S2048x9_S2048_d1 h h_S_]
  have hf : (val_main_v23 (F := Ideal) ids W b ∘ h.lift (ix1 r)) = fun c : Fin 9 => Cert.Spec.logit ids W b r c := by
    funext c
    show val_main_v23 (F := Ideal) ids W b (h.lift (ix1 r) c) = _
    rw [show h.lift (ix1 r) c = ix2 r c from by
      funext a; apply Fin.ext; fin_cases a <;> rfl]
    exact v23_apply ids hpos W b r c
  exact congrArg (fun f => Finset.fold max (Ideal.ofBits .f32 0xFF800000#32) f (Finset.univ : Finset (Fin 9))) hf

/-- The maximum the program subtracts from row `r`. -/
theorem v28_apply (ids : (⟨S2048x200, .i32⟩ : BufTy).Contents (Elt Ideal)) (hpos : ∀ j, 0 ≤ (ids j).toInt)
    (W : (⟨S9x32000, .f32⟩ : BufTy).Contents (Elt Ideal)) (b : (⟨S9, .f32⟩ : BufTy).Contents (Elt Ideal))
    (r : Fin 2048) (c : Fin 9) :
    val_main_v28 (F := Ideal) ids W b (ix2 r c) = Cert.Spec.rowMax (fun c' => Cert.Spec.logit ids W b r c') := by
  rw [val_main_v28_apply, val_main_v27_apply,
    show idx_main_v27 (idx_main_v28 (ix2 r c)) = ix1 r from funext fun a => match a with | ⟨0, _⟩ => rfl,
    val_main_v26_apply, v24_apply ids hpos, val_main_v25_apply, val_main_cst_5_apply, Ideal.ofBits_def,
    Ideal.maximumf_def]
  rfl

/-- The exponential of a shifted logit. -/
theorem v30_apply (ids : (⟨S2048x200, .i32⟩ : BufTy).Contents (Elt Ideal)) (hpos : ∀ j, 0 ≤ (ids j).toInt)
    (W : (⟨S9x32000, .f32⟩ : BufTy).Contents (Elt Ideal)) (b : (⟨S9, .f32⟩ : BufTy).Contents (Elt Ideal))
    (r : Fin 2048) (c : Fin 9) :
    val_main_v30 (F := Ideal) ids W b (ix2 r c) =
      Ideal.exp (Cert.Spec.logit ids W b r c - Cert.Spec.rowMax (fun c' => Cert.Spec.logit ids W b r c')) := by
  rw [val_main_v30_apply, val_main_v29_apply, v23_apply ids hpos, v28_apply ids hpos, Ideal.subf_def,
    Ideal.hostUnary_exp_def]

/-- The sum of the row's exponentials. -/
theorem v33_apply (ids : (⟨S2048x200, .i32⟩ : BufTy).Contents (Elt Ideal)) (hpos : ∀ j, 0 ≤ (ids j).toInt)
    (W : (⟨S9x32000, .f32⟩ : BufTy).Contents (Elt Ideal)) (b : (⟨S9, .f32⟩ : BufTy).Contents (Elt Ideal))
    (r : Fin 2048) (c : Fin 9) :
    val_main_v33 (F := Ideal) ids W b (ix2 r c) =
      ∑ c' : Fin 9,
        Ideal.exp (Cert.Spec.logit ids W b r c' - Cert.Spec.rowMax (fun c'' => Cert.Spec.logit ids W b r c'')) := by
  rw [val_main_v33_apply, val_main_v32_apply,
    show idx_main_v32 (idx_main_v33 (ix2 r c)) = ix1 r from funext fun a => match a with | ⟨0, _⟩ => rfl,
    val_main_v31_apply, val_main_cst_6_apply, Ideal.ofBits_def, Ideal.ofBits_zero_f32, zero_add]
  refine Finset.sum_congr rfl fun k _ => ?_
  rw [show idx_main_v31 (ix1 r) k = ix2 r k from
      funext fun a => match a with | ⟨0, _⟩ => rfl | ⟨1, _⟩ => rfl,
    v30_apply ids hpos]

/-! ## The result -/

/-- Element `(r, c)` of the result is the softmax of row `r`'s logits at class `c`. -/
theorem v34_apply (ids : (⟨S2048x200, .i32⟩ : BufTy).Contents (Elt Ideal)) (hpos : ∀ j, 0 ≤ (ids j).toInt)
    (W : (⟨S9x32000, .f32⟩ : BufTy).Contents (Elt Ideal)) (b : (⟨S9, .f32⟩ : BufTy).Contents (Elt Ideal))
    (r : Fin 2048) (c : Fin 9) :
    val_main_v34 (F := Ideal) ids W b (ix2 r c) =
      Cert.Spec.softmaxRow (fun c' => Cert.Spec.logit ids W b r c') c := by
  rw [val_main_v34_apply, v30_apply ids hpos, v33_apply ids hpos, Ideal.hostDivf_def]
  rfl

end Cert.RefValue

open Cert.ReferenceIdeal in
/-- THE REFERENCE SIDE: over ids that are non-negative as signed words, the reference program's result is the
    specification function. -/
theorem Cert.RefValue.ref_eq_G [Cert.ReferenceIdeal.Facts]
    (ids : (⟨Cert.ReferenceIdeal.S2048x200, .i32⟩ : BufTy).Contents (Elt Ideal))
    (W : (⟨Cert.ReferenceIdeal.S9x32000, .f32⟩ : BufTy).Contents (Elt Ideal))
    (b : (⟨Cert.ReferenceIdeal.S9, .f32⟩ : BufTy).Contents (Elt Ideal))
    (hpos : ∀ j, 0 ≤ (ids j).toInt) :
    Cert.ReferenceIdeal.Read.val_main_v34 (F := Ideal) ids W b = Cert.Spec.G ids W b := by
  funext i
  have hi : i = ix2 (⟨(i 0).val, (i 0).isLt⟩ : Fin 2048) (⟨(i 1).val, (i 1).isLt⟩ : Fin 9) :=
    funext fun a => match a with | ⟨0, _⟩ => rfl | ⟨1, _⟩ => rfl
  exact (congrArg (Cert.ReferenceIdeal.Read.val_main_v34 (F := Ideal) ids W b) hi).trans
    (Cert.RefValue.v34_apply ids hpos W b _ _)

end
-- ==== Proof.PreDecode.lean ====
/-
  The precondition is a conjunction of three statements about the argument arrays: every entry of the
  weight matrix has finite absolute value, every entry of the bias vector has finite absolute value, and
  every id is at least zero as a signed 32-bit integer. Each statement is a conjunction over all entries
  of its array (an "and" over every index, starting from true), and the whole is true exactly when all
  three are. This file reads off the LAST conjunct: if the precondition holds, then for every index j
  the id at j, read as a signed integer, satisfies 0 ≤ ids j.

  The reading has three steps. A conjunction of two one-bit words is 1 only if both are 1, which gives
  that the "and" over all indices of the comparison word (ids j ≥ 0, signed) is 1. An "and" over all
  indices that is 1 met a 1 at every index, which gives the comparison word at j. The signed comparison
  "x ≥ y" of two words is 1 exactly when y ≤ x as signed integers, here with y the zero word, whose
  signed value is 0.
-/
import proofs.«410889_j3547642986554_1_alg».proof.Pre_finite_inputs
import Idealize.ShloMosaic.Lib.ReduceAll
import Idealize.ShloMosaic.Lib.ValueIdx

noncomputable section

namespace Cert.PreDecode

open Idealize.ShloMosaic

/-- The rank-0 shape has exactly one index. -/
instance : Subsingleton Cert.Pre_finite_inputs.S_.Idx := ⟨fun a b => funext fun d => d.elim0⟩

/-- The signed value of the zero word is zero. -/
theorem toInt_zero32 : (0#32 : BitVec 32).toInt = 0 := by decide

/-- Every id is non-negative as a signed integer: the last conjunct of the precondition, at index j. -/
theorem ids_nonneg [Cert.Pre_finite_inputs.Facts]
    (ids : IVec Cert.Pre_finite_inputs.S2048x200 32)
    (W : FVec Ideal Cert.Pre_finite_inputs.S9x32000 .f32)
    (b : FVec Ideal Cert.Pre_finite_inputs.S9 .f32)
    (h : Cert.Pre_finite_inputs.fn (F := Ideal) ids W b = fun _ => 1#1) :
    ∀ j, 0 ≤ (ids j).toInt := by
  intro j
  -- the precondition's one word is 1
  have e := congrFun h ValueIdx.ix0
  dsimp only [Cert.Pre_finite_inputs.fn] at e
  -- the right conjunct: the "and" over all indices of the comparison is 1
  have eAll := (IntOp.andi_eq_one.1 e).2
  -- so the comparison is 1 at j
  have ej := Host.reduce_andi_all _ _ _ _ _ eAll j
  -- the comparison at j is the signed comparison of ids j with the zero word
  have ecmp : IntOp.cmpi .sge (ids j) 0#32 = 1#1 := ej
  have hle := IntOp.cmpi_sge.1 ecmp
  rwa [toInt_zero32] at hle

end Cert.PreDecode

end
-- ==== Proof.lean ====
/-
  The certificate of the bag-of-words classifier kernel against its reference.

  Both programs compute, for each of 2048 rows of 200 word ids, the softmax over nine classes of

      logit r c = (∑ v < 32000, count r v · W c v) + b c,      count r v = #{ l | ids r l = v }.

  The reference builds the 2048 × 32000 count matrix by scattering ones and multiplies it by the transposed weights;
  the kernel works row block by row block and vocabulary chunk by vocabulary chunk, forming each chunk's counts by
  comparing the ids with the chunk's lane numbers, multiplying by the weights' chunk and accumulating the products
  in a scratch; after the last chunk it adds the bias and takes the softmax.  The two agree because a sum over the
  vocabulary is the sum over the chunks of the sums over the lanes, which needs only that addition of extended reals
  is commutative and associative.

  The precondition says that every weight and every bias entry is finite and that every id is at least zero as a
  signed integer.  Only the last is used: the reference reads a negative id `i` as the index `i + 32000`, while the
  kernel's comparison matches no lane for it; an id of 32000 or more is counted by neither program.

  The three frame claims are the generated frames of the two kernel programs and the reference's generated run;
  the idealization rewrote nothing, so the preservation claim is trivial.
-/
import proofs.«410889_j3547642986554_1_alg».proof.Defs
import proofs.«410889_j3547642986554_1_alg».proof.Proof.Gen.Kernel
import proofs.«410889_j3547642986554_1_alg».proof.Proof.Gen.Kernel.Skeleton
import proofs.«410889_j3547642986554_1_alg».proof.Proof.Gen.Kernel.Launch
import proofs.«410889_j3547642986554_1_alg».proof.Proof.Gen.Kernel.Points
import proofs.«410889_j3547642986554_1_alg».proof.Proof.Gen.Kernel.Frame
import proofs.«410889_j3547642986554_1_alg».proof.Proof.Gen.KernelIdeal
import proofs.«410889_j3547642986554_1_alg».proof.Proof.Gen.KernelIdeal.Skeleton
import proofs.«410889_j3547642986554_1_alg».proof.Proof.Gen.KernelIdeal.Launch
import proofs.«410889_j3547642986554_1_alg».proof.Proof.Gen.KernelIdeal.Points
import proofs.«410889_j3547642986554_1_alg».proof.Proof.Gen.KernelIdeal.Frame
import proofs.«410889_j3547642986554_1_alg».proof.Proof.Gen.ReferenceIdeal
import proofs.«410889_j3547642986554_1_alg».proof.Proof.Gen.Pre_finite_inputs
import proofs.«410889_j3547642986554_1_alg».proof.Proof.Gen.KernelIdeal.Value
import proofs.«410889_j3547642986554_1_alg».proof.Proof.Gen.ReferenceIdeal.Run
import proofs.«410889_j3547642986554_1_alg».proof.Proof.Gen.ReferenceIdeal.Read
import proofs.«410889_j3547642986554_1_alg».proof.Proof.KValue
import proofs.«410889_j3547642986554_1_alg».proof.Proof.RefValue
import proofs.«410889_j3547642986554_1_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs without fault and leaves its arguments unchanged. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- So does the idealized reference: its run, with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments, with every id non-negative, both programs end with the specification's
    value of the arguments in their result arrays. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.KValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2.1, (hagree c).2.2]
  exact Cert.RefValue.ref_eq_G _ _ _ (Cert.PreDecode.ids_nonneg _ _ _ (hpre c))

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
